-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S2x4000000 : Shape := ⟨2, ![2, 4000000]⟩
abbrev S16x32x16 : Shape := ⟨3, ![16, 32, 16]⟩
abbrev S16x16 : Shape := ⟨2, ![16, 16]⟩
abbrev S_ : Shape := ⟨0, ![]⟩

class Facts : Prop where
  bcast_S_S16x32x16 : S_.BroadcastsInDim S16x32x16 (![] : Fin 0 → Fin S16x32x16.rank)
  reducesTo_S16x32x16_S_d0_1_2 : S16x32x16.ReducesTo [0, 1, 2] S_
  h_S_ : 0 < S_.numel
  bcast_S_S16x16 : S_.BroadcastsInDim S16x16 (![] : Fin 0 → Fin S16x16.rank)
  reducesTo_S16x16_S_d0_1 : S16x16.ReducesTo [0, 1] S_
  bcast_S_S500000 : S_.BroadcastsInDim S500000 (![] : Fin 0 → Fin S500000.rank)
  reducesTo_S500000_S_d0 : S500000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S500000 32) (main_arg1 : IVec S2x4000000 32) (main_arg2 : IVec S500000 32) (main_arg3 : FVec F S16x32x16 .f32) (main_arg4 : FVec F S16x16 .f32) : IVec S_ 1 :=
  let main_v0 : FVec F S16x32x16 .f32 := Host.absf main_arg3
  let main_cst : FVec F S_ .f32 := constant S_ .f32 0x7F800000#32
  let main_v1 : FVec F S16x32x16 .f32 := broadcastInDim S16x32x16 ![] bcast_S_S16x32x16 main_cst
  let main_v2 : IVec S16x32x16 1 := cmpf .olt main_v0 main_v1
  let main_c : IVec S_ 1 := constantI S_ 1 1#1
  let main_v3 : IVec S_ 1 := (fun x v => Host.reduce IntOp.andi x v reducesTo_S16x32x16_S_d0_1_2 h_S_) main_v2 main_c
  let main_v4 : FVec F S16x16 .f32 := Host.absf main_arg4
  let main_cst_0 : FVec F S_ .f32 := constant S_ .f32 0x7F800000#32
  let main_v5 : FVec F S16x16 .f32 := broadcastInDim S16x16 ![] bcast_S_S16x16 main_cst_0
  let main_v6 : IVec S16x16 1 := cmpf .olt main_v4 main_v5
  let main_c_1 : IVec S_ 1 := constantI S_ 1 1#1
  let main_v7 : IVec S_ 1 := (fun x v => Host.reduce IntOp.andi x v reducesTo_S16x16_S_d0_1 h_S_) main_v6 main_c_1
  let main_v8 : IVec S_ 1 := andi main_v3 main_v7
  let main_c_2 : IVec S_ 32 := constantI S_ 32 0#32
  let main_v9 : IVec S500000 32 := broadcastInDim S500000 ![] bcast_S_S500000 main_c_2
  let main_v10 : IVec S500000 1 := cmpi .sge main_arg0 main_v9
  let main_c_3 : IVec S_ 1 := constantI S_ 1 1#1
  let main_v11 : IVec S_ 1 := (fun x v => Host.reduce IntOp.andi x v reducesTo_S500000_S_d0 h_S_) main_v10 main_c_3
  let main_v12 : IVec S_ 1 := andi main_v8 main_v11
  let main_c_4 : IVec S_ 32 := constantI S_ 32 32#32
  let main_v13 : IVec S500000 32 := broadcastInDim S500000 ![] bcast_S_S500000 main_c_4
  let main_v14 : IVec S500000 1 := cmpi .slt main_arg0 main_v13
  let main_c_5 : IVec S_ 1 := constantI S_ 1 1#1
  let main_v15 : IVec S_ 1 := (fun x v => Host.reduce IntOp.andi x v reducesTo_S500000_S_d0 h_S_) main_v14 main_c_5
  fn_part1 (F := F) main_v12 main_v15
-- ==== Kernel.lean ====
abbrev S500000 : Shape := ⟨1, ![500000]⟩
abbrev S2x4000000 : Shape := ⟨2, ![2, 4000000]⟩
abbrev S16x32x16 : Shape := ⟨3, ![16, 32, 16]⟩
abbrev S16x16 : Shape := ⟨2, ![16, 16]⟩
abbrev S_ : Shape := ⟨0, ![]⟩
abbrev S16x1x16 : Shape := ⟨3, ![16, 1, 16]⟩
abbrev S16 : Shape := ⟨1, ![16]⟩
abbrev S1x16 : Shape := ⟨2, ![1, 16]⟩
abbrev S32x16x16 : Shape := ⟨3, ![32, 16, 16]⟩
abbrev S32x256 : Shape := ⟨2, ![32, 256]⟩
abbrev S256 : Shape := ⟨1, ![256]⟩
abbrev S503808 : Shape := ⟨1, ![503808]⟩
abbrev S16x503808 : Shape := ⟨2, ![16, 503808]⟩
abbrev S4096 : Shape := ⟨1, ![4096]⟩
abbrev S16x4096 : Shape := ⟨2, ![16, 4096]⟩
abbrev S4096x32 : Shape := ⟨2, ![4096, 32]⟩
abbrev S4096x1 : Shape := ⟨2, ![4096, 1]⟩
abbrev S4096x256 : Shape := ⟨2, ![4096, 256]⟩
abbrev S1x256 : Shape := ⟨2, ![1, 256]⟩
abbrev S4096x16 : Shape := ⟨2, ![4096, 16]⟩
abbrev S16x500000 : Shape := ⟨2, ![16, 500000]⟩
abbrev S500000x16 : Shape := ⟨2, ![500000, 16]⟩
abbrev S5000x16 : Shape := ⟨2, ![5000, 16]⟩
abbrev S500000x1 : Shape := ⟨2, ![500000, 1]⟩
abbrev S5000x1x16 : Shape := ⟨3, ![5000, 1, 16]⟩

abbrev nBuf : Space → Nat
  | .hbm => 52
  | .vmem => 7
  | .smem => 0
  | _ => 0

abbrev bufTy : (tb : Table) → Fin (tcTables nBuf tb) → BufTy
  | .hbm, ⟨0, _⟩ => ⟨S500000, .i32⟩
  | .hbm, ⟨1, _⟩ => ⟨S2x4000000, .i32⟩
  | .hbm, ⟨2, _⟩ => ⟨S500000, .i32⟩
  | .hbm, ⟨3, _⟩ => ⟨S16x32x16, .f32⟩
  | .hbm, ⟨4, _⟩ => ⟨S16x16, .f32⟩
  | .hbm, ⟨5, _⟩ => ⟨S_, .f32⟩
  | .hbm, ⟨6, _⟩ => ⟨S16x16, .f32⟩
  | .hbm, ⟨7, _⟩ => ⟨S_, .f32⟩
  | .hbm, ⟨8, _⟩ => ⟨S16x16, .f32⟩
  | .hbm, ⟨9, _⟩ => ⟨S16x16, .f32⟩
  | .hbm, ⟨10, _⟩ => ⟨S16x1x16, .f32⟩
  | .hbm, ⟨11, _⟩ => ⟨S16x32x16, .f32⟩
  | .hbm, ⟨12, _⟩ => ⟨S16x32x16, .f32⟩
  | .hbm, ⟨13, _⟩ => ⟨S16x32x16, .f32⟩
  | .hbm, ⟨14, _⟩ => ⟨S_, .f32⟩
  | .hbm, ⟨15, _⟩ => ⟨S16x16, .f32⟩
  | .hbm, ⟨16, _⟩ => ⟨S16x1x16, .f32⟩
  | .hbm, ⟨17, _⟩ => ⟨S16x32x16, .f32⟩
  | .hbm, ⟨18, _⟩ => ⟨S16x32x16, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S1x16, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S_, .f32⟩
  | .hbm, ⟨29, _⟩ => ⟨S16, .f32⟩
  | .hbm, ⟨30, _⟩ => ⟨S1x16, .f32⟩
  | .hbm, ⟨31, _⟩ => ⟨S16x16, .f32⟩
  | .hbm, ⟨32, _⟩ => ⟨S16x16, .f32⟩
  | .hbm, ⟨33, _⟩ => ⟨S32x16x16, .f32⟩
  | .hbm, ⟨34, _⟩ => ⟨S32x256, .f32⟩
  | .hbm, ⟨35, _⟩ => ⟨S256, .f32⟩
  | .hbm, ⟨36, _⟩ => ⟨S32x256, .bf16⟩
  | .hbm, ⟨37, _⟩ => ⟨S32x256, .f32⟩
  | .hbm, ⟨38, _⟩ => ⟨S32x256, .f32⟩
  | .hbm, ⟨39, _⟩ => ⟨S32x256, .bf16⟩
  | .hbm, ⟨40, _⟩ => ⟨S_, .i32⟩
  | .hbm, ⟨41, _⟩ => ⟨S_, .i32⟩
  | .hbm, ⟨42, _⟩ => ⟨S503808, .i32⟩
  | .hbm, ⟨43, _⟩ => ⟨S16x503808, .f32⟩
  | .hbm, ⟨44, _⟩ => ⟨S16x500000, .f32⟩
  | .hbm, ⟨45, _⟩ => ⟨S500000x16, .f32⟩
  | .hbm, ⟨46, _⟩ => ⟨S_, .f32⟩
  | .hbm, ⟨47, _⟩ => ⟨S5000x16, .f32⟩
  | .hbm, ⟨48, _⟩ => ⟨S500000x1, .i32⟩
  | .hbm, ⟨49, _⟩ => ⟨S5000x16, .f32⟩
  | .hbm, ⟨50, _⟩ => ⟨S5000x1x16, .f32⟩
  | .hbm, ⟨51, _⟩ => ⟨S5000x1x16, .f32⟩
  | .local _ .vmem, ⟨0, _⟩ => ⟨S4096, .i32⟩
  | .local _ .vmem, ⟨1, _⟩ => ⟨S4096, .i32⟩
  | .local _ .vmem, ⟨2, _⟩ => ⟨S32x256, .bf16⟩
  | .local _ .vmem, ⟨3, _⟩ => ⟨S32x256, .bf16⟩
  | .local _ .vmem, ⟨4, _⟩ => ⟨S256, .f32⟩
  | .local _ .vmem, ⟨5, _⟩ => ⟨S16x4096, .f32⟩
  | .local _ .vmem, ⟨6, _⟩ => ⟨S16x4096, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![123], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S16x32x16_S16x16_d1 : S16x32x16.ReducesTo [1] S16x16
  h_S_ : 0 < S_.numel
  bcast_S_S16x16 : S_.BroadcastsInDim S16x16 (![] : Fin 0 → Fin S16x16.rank)
  bcast_S16x16_S16x1x16_0_2 : S16x16.BroadcastsInDim S16x1x16 (![0, 2] : Fin 2 → Fin S16x1x16.rank)
  bcast_S16x1x16_S16x32x16_0_1_2 : S16x1x16.BroadcastsInDim S16x32x16 (![0, 1, 2] : Fin 3 → Fin S16x32x16.rank)
  reducesTo_S16x16_S16_d0 : S16x16.ReducesTo [0] S16
  bcast_S_S16 : S_.BroadcastsInDim S16 (![] : Fin 0 → Fin S16.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  transposes_S16x32x16_S32x16x16_1_0_2 : S16x32x16.Transposes [1, 0, 2] S32x16x16
  shapeCasts_S32x16x16_S32x256 : S32x16x16.ShapeCasts S32x256
  shapeCasts_S16x16_S256 : S16x16.ShapeCasts S256
  bitsLt_bf16_f32 : FTy.bits .bf16 < FTy.bits .f32
  pads_S500000_S503808_038080 : S500000.Pads (![0] : Fin 1 → Nat) ![3808] ![0] S503808
  inb_S4096_S4096_0 : ∀ a, (![0] : Fin 1 → Nat) a + S4096.size a ≤ S4096.size a
  h_S4096 : 0 < S4096.numel
  shapeCasts_S4096_S4096 : S4096.ShapeCasts S4096
  iota_S4096x32_d1_w32 : S4096x32.Iotas .tc 32 [1]
  shapeCasts_S4096_S4096x1 : S4096.ShapeCasts S4096x1
  broadcasts_S4096x1_S4096x32 : S4096x1.Broadcasts S4096x32
  natLt_1_32 : 1 < 32
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S4096x256 : S1x256.Broadcasts S4096x256
  rotates_S4096x256_d1 : S4096x256.Rotates 1 none
  slices_S4096x256_o0_0_S4096x16 : S4096x256.Slices ![0, 0] S4096x16
  transposes_S4096x16_p1_0_S16x4096 : S4096x16.Transposes [1, 0] S16x4096
  inb_S16x4096_S16x4096_0_0 : ∀ a, (![0, 0] : Fin 2 → Nat) a + S16x4096.size a ≤ S16x4096.size a
  h_S16x4096 : 0 < S16x4096.numel
  slices_S16x503808_S16x500000_0_0 : S16x503808.Slices ![0, 0] S16x500000
  transposes_S16x500000_S500000x16_1_0 : S16x500000.Transposes [1, 0] S500000x16
  bcast_S_S5000x16 : S_.BroadcastsInDim S5000x16 (![] : Fin 0 → Fin S5000x16.rank)
  bcast_S500000_S500000x1_0 : S500000.BroadcastsInDim S500000x1 (![0] : Fin 1 → Fin S500000x1.rank)
  bcast_S5000x16_S5000x1x16_0_2 : S5000x16.BroadcastsInDim S5000x1x16 (![0, 2] : Fin 2 → Fin S5000x1x16.rank)
  dot_S4096x32_S32x256_S4096x256_1_0_0_1_n_n_wf : DotDims.WF S4096x32 S32x256 S4096x256 [1] [0] [0] [1] [] []
  scatter_S5000x16_S500000x1_S500000x16_1_0_0_1_wf : ScatterDims.WF S5000x16 S500000x1 S500000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096.size a ≤ S503808.size a
  hwx0_0 : ∀ i : grid0.Coords, EltTy.bits .i32 = 32 ∨ (Rect.block (s := S503808) S4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S32x256.size a
  hwx0_1 : ∀ i : grid0.Coords, EltTy.bits .bf16 = 32 ∨ (Rect.block (s := S32x256) S32x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x256.size a
  hwx0_2 : ∀ i : grid0.Coords, EltTy.bits .bf16 = 32 ∨ (Rect.block (s := S32x256) S32x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x4096.size a ≤ S16x503808.size a
  hwx0_4 : ∀ i : grid0.Coords, EltTy.bits .f32 = 32 ∨ (Rect.block (s := S16x503808) S16x4096.size (cc0_transform_4 i) (hinb0_4 i)).WholeWords (EltTy.packing .f32)

variable [Facts₀]

def dot_S4096x32_S32x256_S4096x256_1_0_0_1_n_n : DotDims S4096x32 S32x256 S4096x256 where
  lhsContracting := [1]
  rhsContracting := [0]
  lhsNonContracting := [0]
  rhsNonContracting := [1]
  lhsBatch := []
  rhsBatch := []
  wf := dot_S4096x32_S32x256_S4096x256_1_0_0_1_n_n_wf
def scatter_S5000x16_S500000x1_S500000x16_1_0_0_1 : ScatterDims S5000x16 S500000x1 S500000x16 where
  updateWindowDims := [1]
  insertedWindowDims := [0]
  scatterDimsToOperandDims := [0]
  indexVectorDim := 1
  wf := scatter_S5000x16_S500000x1_S500000x16_1_0_0_1_wf

abbrev win0_0 : Pipeline.Window sig grid0 :=
  Pipeline.Window.ofSpec (Memref.whole main_v29) S4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S32x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S32x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S16x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S500000 : Shape := ⟨1, ![500000]⟩
abbrev S2x4000000 : Shape := ⟨2, ![2, 4000000]⟩
abbrev S16x32x16 : Shape := ⟨3, ![16, 32, 16]⟩
abbrev S16x16 : Shape := ⟨2, ![16, 16]⟩
abbrev S_ : Shape := ⟨0, ![]⟩
abbrev S16x1x16 : Shape := ⟨3, ![16, 1, 16]⟩
abbrev S16 : Shape := ⟨1, ![16]⟩
abbrev S1x16 : Shape := ⟨2, ![1, 16]⟩
abbrev S500000x1 : Shape := ⟨2, ![500000, 1]⟩
abbrev S16x500000x16 : Shape := ⟨3, ![16, 500000, 16]⟩
abbrev S500000x16x16 : Shape := ⟨3, ![500000, 16, 16]⟩
abbrev S1x16x16 : Shape := ⟨3, ![1, 16, 16]⟩
abbrev S500000x16 : Shape := ⟨2, ![500000, 16]⟩
abbrev S500000x1x16 : Shape := ⟨3, ![500000, 1, 16]⟩
abbrev S5000x16 : Shape := ⟨2, ![5000, 16]⟩
abbrev S5000x1x16 : Shape := ⟨3, ![5000, 1, 16]⟩

abbrev nBuf : Space → Nat
  | .hbm => 61
  | .vmem => 0
  | .smem => 0
  | _ => 0

abbrev bufTy : (tb : Table) → Fin (tcTables nBuf tb) → BufTy
  | .hbm, ⟨0, _⟩ => ⟨S500000, .i32⟩
  | .hbm, ⟨1, _⟩ => ⟨S2x4000000, .i32⟩
  | .hbm, ⟨2, _⟩ => ⟨S500000, .i32⟩
  | .hbm, ⟨3, _⟩ => ⟨S16x32x16, .f32⟩
  | .hbm, ⟨4, _⟩ => ⟨S16x16, .f32⟩
  | .hbm, ⟨5, _⟩ => ⟨S_, .f32⟩
  | .hbm, ⟨6, _⟩ => ⟨S16x16, .f32⟩
  | .hbm, ⟨7, _⟩ => ⟨S_, .f32⟩
  | .hbm, ⟨8, _⟩ => ⟨S16x16, .f32⟩
  | .hbm, ⟨9, _⟩ => ⟨S16x16, .f32⟩
  | .hbm, ⟨10, _⟩ => ⟨S16x1x16, .f32⟩
  | .hbm, ⟨11, _⟩ => ⟨S16x32x16, .f32⟩
  | .hbm, ⟨12, _⟩ => ⟨S16x32x16, .f32⟩
  | .hbm, ⟨13, _⟩ => ⟨S16x32x16, .f32⟩
  | .hbm, ⟨14, _⟩ => ⟨S_, .f32⟩
  | .hbm, ⟨15, _⟩ => ⟨S16x16, .f32⟩
  | .hbm, ⟨16, _⟩ => ⟨S16x1x16, .f32⟩
  | .hbm, ⟨17, _⟩ => ⟨S16x32x16, .f32⟩
  | .hbm, ⟨18, _⟩ => ⟨S16x32x16, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S1x16, .f32⟩
  | .hbm, ⟨25, _⟩ => ⟨S16x16, .f32⟩
  | .hbm, ⟨26, _⟩ => ⟨S16x16, .f32⟩
  | .hbm, ⟨27, _⟩ => ⟨S16x16, .f32⟩
  | .hbm, ⟨28, _⟩ => ⟨S_, .f32⟩
  | .hbm, ⟨29, _⟩ => ⟨S16, .f32⟩
  | .hbm, ⟨30, _⟩ => ⟨S1x16, .f32⟩
  | .hbm, ⟨31, _⟩ => ⟨S16x16, .f32⟩
  | .hbm, ⟨32, _⟩ => ⟨S16x16, .f32⟩
  | .hbm, ⟨33, _⟩ => ⟨S_, .i32⟩
  | .hbm, ⟨34, _⟩ => ⟨S500000, .i32⟩
  | .hbm, ⟨35, _⟩ => ⟨S500000, .i1⟩
  | .hbm, ⟨36, _⟩ => ⟨S_, .i32⟩
  | .hbm, ⟨37, _⟩ => ⟨S500000, .i32⟩
  | .hbm, ⟨38, _⟩ => ⟨S500000, .i32⟩
  | .hbm, ⟨39, _⟩ => ⟨S500000, .i32⟩
  | .hbm, ⟨40, _⟩ => ⟨S500000x1, .i32⟩
  | .hbm, ⟨41, _⟩ => ⟨S16x500000x16, .f32⟩
  | .hbm, ⟨42, _⟩ => ⟨S500000x16x16, .f32⟩
  | .hbm, ⟨43, _⟩ => ⟨S1x16x16, .f32⟩
  | .hbm, ⟨44, _⟩ => ⟨S500000x16x16, .f32⟩
  | .hbm, ⟨45, _⟩ => ⟨S500000x16x16, .f32⟩
  | .hbm, ⟨46, _⟩ => ⟨S_, .f32⟩
  | .hbm, ⟨47, _⟩ => ⟨S500000x16, .f32⟩
  | .hbm, ⟨48, _⟩ => ⟨S500000x1x16, .f32⟩
  | .hbm, ⟨49, _⟩ => ⟨S500000x16x16, .f32⟩
  | .hbm, ⟨50, _⟩ => ⟨S500000x16x16, .f32⟩
  | .hbm, ⟨51, _⟩ => ⟨S500000x16x16, .f32⟩
  | .hbm, ⟨52, _⟩ => ⟨S500000x16x16, .f32⟩
  | .hbm, ⟨53, _⟩ => ⟨S_, .f32⟩
  | .hbm, ⟨54, _⟩ => ⟨S500000x16, .f32⟩
  | .hbm, ⟨55, _⟩ => ⟨S_, .f32⟩
  | .hbm, ⟨56, _⟩ => ⟨S5000x16, .f32⟩
  | .hbm, ⟨57, _⟩ => ⟨S500000x1, .i32⟩
  | .hbm, ⟨58, _⟩ => ⟨S5000x16, .f32⟩
  | .hbm, ⟨59, _⟩ => ⟨S5000x1x16, .f32⟩
  | .hbm, ⟨60, _⟩ => ⟨S5000x1x16, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]

class Facts₀ : Prop where
  reducesTo_S16x32x16_S16x16_d1 : S16x32x16.ReducesTo [1] S16x16
  h_S_ : 0 < S_.numel
  bcast_S_S16x16 : S_.BroadcastsInDim S16x16 (![] : Fin 0 → Fin S16x16.rank)
  bcast_S16x16_S16x1x16_0_2 : S16x16.BroadcastsInDim S16x1x16 (![0, 2] : Fin 2 → Fin S16x1x16.rank)
  bcast_S16x1x16_S16x32x16_0_1_2 : S16x1x16.BroadcastsInDim S16x32x16 (![0, 1, 2] : Fin 3 → Fin S16x32x16.rank)
  reducesTo_S16x16_S16_d0 : S16x16.ReducesTo [0] S16
  bcast_S_S16 : S_.BroadcastsInDim S16 (![] : Fin 0 → Fin S16.rank)
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S_S500000 : S_.BroadcastsInDim S500000 (![] : Fin 0 → Fin S500000.rank)
  bcast_S500000_S500000x1_0 : S500000.BroadcastsInDim S500000x1 (![0] : Fin 1 → Fin S500000x1.rank)
  transposes_S16x500000x16_S500000x16x16_1_0_2 : S16x500000x16.Transposes [1, 0, 2] S500000x16x16
  bcast_S16x16_S1x16x16_1_2 : S16x16.BroadcastsInDim S1x16x16 (![1, 2] : Fin 2 → Fin S1x16x16.rank)
  bcast_S1x16x16_S500000x16x16_0_1_2 : S1x16x16.BroadcastsInDim S500000x16x16 (![0, 1, 2] : Fin 3 → Fin S500000x16x16.rank)
  reducesTo_S500000x16x16_S500000x16_d1 : S500000x16x16.ReducesTo [1] S500000x16
  bcast_S500000x16_S500000x1x16_0_2 : S500000x16.BroadcastsInDim S500000x1x16 (![0, 2] : Fin 2 → Fin S500000x1x16.rank)
  bcast_S500000x1x16_S500000x16x16_0_1_2 : S500000x1x16.BroadcastsInDim S500000x16x16 (![0, 1, 2] : Fin 3 → Fin S500000x16x16.rank)
  bcast_S_S5000x16 : S_.BroadcastsInDim S5000x16 (![] : Fin 0 → Fin S5000x16.rank)
  bcast_S5000x16_S5000x1x16_0_2 : S5000x16.BroadcastsInDim S5000x1x16 (![0, 2] : Fin 2 → Fin S5000x1x16.rank)
  gather_S16x32x16_S500000x1_S16x500000x16_02_1_n_n_1_1_16116_wf : GatherDims.WF S16x32x16 S500000x1 S16x500000x16 [0, 2] [1] [] [1] [] 1 ![16, 1, 16]
  scatter_S5000x16_S500000x1_S500000x16_1_0_0_1_wf : ScatterDims.WF S5000x16 S500000x1 S500000x16 [1] [0] [0] 1

variable [Facts₀]

def gather_S16x32x16_S500000x1_S16x500000x16_02_1_n_n_1_1_16116 : GatherDims S16x32x16 S500000x1 S16x500000x16 where
  offsetDims := [0, 2]
  collapsedSliceDims := [1]
  operandBatchingDims := []
  startIndicesBatchingDims := []
  startIndexMap := [1]
  indexVectorDim := 1
  sliceSizes := ![16, 1, 16]
  wf := gather_S16x32x16_S500000x1_S16x500000x16_02_1_n_n_1_1_16116_wf
def scatter_S5000x16_S500000x1_S500000x16_1_0_0_1 : ScatterDims S5000x16 S500000x1 S500000x16 where
  updateWindowDims := [1]
  insertedWindowDims := [0]
  scatterDimsToOperandDims := [0]
  indexVectorDim := 1
  wf := scatter_S5000x16_S500000x1_S500000x16_1_0_0_1_wf

class Facts : Prop extends Facts₀ where

variable [Facts]
-- ==== Proof.Domain.lean ====
/-
  What the precondition gives.

  Every label word is signed-at-least 0 and signed-below 32, so it is the word of a number below 32. Every entry of B
  has absolute value below +∞, so it is a real; then the maximum over the labels is a real, each shifted exponential is
  a positive real, their sum from zero is a positive real, and the quotient — the softmax — is a real.
-/
import proofs.«417450_j39015482917006_3_alg».proof.Pre_finite_inputs
import proofs.«417450_j39015482917006_3_alg».proof.Proof.Gen.Pre_finite_inputs
import proofs.«417450_j39015482917006_3_alg».proof.Proof.Gen.ReferenceIdeal.Read
import Idealize.ShloMosaic.Lib.ValueIdx
import Idealize.ShloMosaic.Lib.ReduceAll
import Idealize.ShloMosaic.Lib.StableHlo.Predicate
import Idealize.ShloMosaic.PureOps.Ideal.Laws
import Mathlib.Data.EReal.Operations
import Mathlib.Data.Finset.Lattice.Fold
import Mathlib.Algebra.Order.BigOperators.Group.Finset
import Mathlib.Analysis.Complex.Exponential

noncomputable section

open scoped BigOperators

namespace Cert.Domain

open Cert.ReferenceIdeal Cert.ReferenceIdeal.Gen Idealize.ShloMosaic Idealize.ShloMosaic.ValueIdx

/-! ## What the precondition gives

The precondition is the conjunction of four statements over whole arrays: every entry of B and of Pi has absolute value
below the top, and every label word is signed-at-least 0 and signed-below 32. Read at one element they give: every
label word is the word of a number below 32, and every entry of B is a real. -/

/-- A 32-bit word that is signed-at-least 0 and signed-below 32 has value below 32. -/
theorem word_lt_32 (a : BitVec 32) (h1 : IntOp.cmpi .sge a 0#32 = 1#1) (h2 : IntOp.cmpi .slt a 32#32 = 1#1) :
    a.toNat < 32 := by
  unfold IntOp.cmpi at h1 h2
  rw [StableHlo.Predicate.ofBool_eq_one_iff] at h1 h2
  simp only [BitVec.sle, BitVec.slt, decide_eq_true_eq] at h1 h2
  have e := BitVec.toInt_eq_toNat_cond a
  have z0 : (0#32 : BitVec 32).toInt = 0 := by decide
  have z32 : (32#32 : BitVec 32).toInt = 32 := by decide
  rw [z0] at h1
  rw [z32] at h2
  split at e <;> omega

/-- The word of positive infinity denotes the top element. -/
theorem ofBits_pinf : Ideal.ofBits .f32 0x7F800000#32 = ⊤ := by simp [Ideal.ofBits, Ideal.ieee]

/-- An extended real whose absolute value is below the top is a real. -/
theorem real_of_abs_lt_top (b : EReal)
    (h : FloatOps.cmpf (F := Ideal) (φ := .f32) .olt (FloatOps.hostAbsf (F := Ideal) (φ := .f32) b)
      (FloatOps.ofBits (F := Ideal) .f32 0x7F800000#32) = 1#1) :
    ∃ r : ℝ, b = (r : EReal) := by
  change Ideal.cmp .olt (max b (-b)) (Ideal.ofBits .f32 0x7F800000#32) = 1#1 at h
  rw [ofBits_pinf] at h
  simp only [Ideal.cmp] at h
  rw [StableHlo.Predicate.ofBool_eq_one_iff, decide_eq_true_eq] at h
  induction b using EReal.rec with
  | bot => simp at h
  | coe r => exact ⟨r, rfl⟩
  | top => simp at h

/-- What the precondition says of each element: every label word is below 32, every entry of B is a real. -/
theorem pre_elems (x0 : IVec Cert.Pre_finite_inputs.S500000 32) (x1 : IVec Cert.Pre_finite_inputs.S2x4000000 32)
    (x2 : IVec Cert.Pre_finite_inputs.S500000 32) (x3 : FVec Ideal Cert.Pre_finite_inputs.S16x32x16 .f32)
    (x4 : FVec Ideal Cert.Pre_finite_inputs.S16x16 .f32)
    (h : Cert.Pre_finite_inputs.fn (F := Ideal) x0 x1 x2 x3 x4 = fun _ => 1#1) :
    (∀ i, (x0 i).toNat < 32) ∧ (∀ i, ∃ r : ℝ, x3 i = (r : EReal)) := by
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, _⟩ := IntOp.andi_eq_one.1 h12
  refine ⟨fun i => ?_, fun i => ?_⟩
  · have a3 := Host.reduce_andi_all _ _ _ _ _ h3 i
    have a4 := Host.reduce_andi_all _ _ _ _ _ h4 i
    exact word_lt_32 (x0 i) a3 a4
  · have a1 := Host.reduce_andi_all _ _ _ _ _ h1 i
    exact real_of_abs_lt_top (x3 i) a1

theorem label_of_pre (x0 : IVec Cert.Pre_finite_inputs.S500000 32) (x1 : IVec Cert.Pre_finite_inputs.S2x4000000 32)
    (x2 : IVec Cert.Pre_finite_inputs.S500000 32) (x3 : FVec Ideal Cert.Pre_finite_inputs.S16x32x16 .f32)
    (x4 : FVec Ideal Cert.Pre_finite_inputs.S16x16 .f32)
    (h : Cert.Pre_finite_inputs.fn (F := Ideal) x0 x1 x2 x3 x4 = fun _ => 1#1) (n : Fin 500000) :
    ∃ ℓ : Fin 32, x0 (ix1 n) = BitVec.ofNat 32 ℓ.val := by
  have hlt := (pre_elems x0 x1 x2 x3 x4 h).1 (ix1 n)
  exact ⟨⟨(x0 (ix1 n)).toNat, hlt⟩, by
    apply BitVec.eq_of_toNat_eq
    rw [BitVec.toNat_ofNat]
    exact (Nat.mod_eq_of_lt (by omega)).symm⟩

/-! ## The softmax of a real array is real -/

/-- The embedding of the reals passes through a finite sum. -/
theorem sum_coe_real {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The maximum, from the bottom, of a nonempty finite family of reals is one of them, so a real. -/
theorem fold_max_real {ι : Type} (s : Finset ι) (hs : s.Nonempty) (f : ι → EReal)
    (hf : ∀ k, ∃ r : ℝ, f k = (r : EReal)) : ∃ m : ℝ, s.fold max ⊥ f = (m : EReal) := by
  have e : s.fold max ⊥ f = s.sup f := rfl
  obtain ⟨i, _, hi⟩ := Finset.exists_mem_eq_sup s hs f
  obtain ⟨r, hr⟩ := hf i
  exact ⟨r, by rw [e, hi, hr]⟩

/-- The word of negative infinity denotes the bottom element. -/
theorem ofBits_ninf : Ideal.ofBits .f32 0xFF800000#32 = ⊥ := by simp [Ideal.ofBits, Ideal.ieee]

/-- The softmax over 32 reals, shifted by a real, is a real: each exponential is a positive real, their sum is a
    positive real, and the quotient by a nonzero real is a real. -/
theorem softmax_real (b : Fin 32 → EReal) (hb : ∀ k, ∃ r : ℝ, b k = (r : EReal)) (M : Fin 32 → EReal)
    (hM : ∀ k, ∃ m : ℝ, M k = (m : EReal)) (l : Fin 32) :
    ∃ r : ℝ, Ideal.div (Ideal.exp (b l - M l)) (0 + ∑ k : Fin 32, Ideal.exp (b k - M k)) = (r : EReal) := by
  choose br hbr using hb
  choose mr hmr using hM
  have he : ∀ k, Ideal.exp (b k - M k) = ((Real.exp (br k - mr k) : ℝ) : EReal) := fun k => by
    rw [hbr k, hmr k, ← EReal.coe_sub]; rfl
  have hS : (0 : EReal) + ∑ k : Fin 32, Ideal.exp (b k - M k) = ((∑ k : Fin 32, Real.exp (br k - mr k) : ℝ) : EReal) := by
    rw [zero_add, ← sum_coe_real]
    exact Finset.sum_congr rfl fun k _ => he k
  have hpos : (0 : ℝ) < ∑ k : Fin 32, Real.exp (br k - mr k) :=
    Finset.sum_pos (fun k _ => Real.exp_pos _) ⟨0, Finset.mem_univ _⟩
  rw [hS, he l, Ideal.div_coe (ne_of_gt hpos), ← EReal.coe_mul]
  exact ⟨_, rfl⟩

/-- The maximum over the labels of a real array is real at every (class, group). -/
theorem v0_real (x3 : FVec Ideal Cert.Pre_finite_inputs.S16x32x16 .f32) (hB : ∀ i, ∃ r : ℝ, x3 i = (r : EReal))
    (j : Cert.ReferenceIdeal.S16x16.Idx) : ∃ m : ℝ, Read.val_main_v0 (F := Ideal) x3 j = (m : EReal) := by
  unfold Read.val_main_v0
  rw [Host.reduce_eq_fold_single (FloatOps.maximumf (F := Ideal) (φ := .f32)) x3 _ reducesTo_S16x32x16_S16x16_d1
    (by decide) h_S_ j]
  rw [Read.val_main_cst_apply]
  change ∃ m : ℝ, Finset.fold max (Ideal.ofBits .f32 0xFF800000#32) _ Finset.univ = (m : EReal)
  rw [ofBits_ninf]
  exact fold_max_real _ ⟨⟨0, by decide⟩, Finset.mem_univ _⟩ _ (fun k => hB _)

theorem softmaxB_real (x0 : IVec Cert.Pre_finite_inputs.S500000 32) (x1 : IVec Cert.Pre_finite_inputs.S2x4000000 32)
    (x2 : IVec Cert.Pre_finite_inputs.S500000 32) (x3 : FVec Ideal Cert.Pre_finite_inputs.S16x32x16 .f32)
    (x4 : FVec Ideal Cert.Pre_finite_inputs.S16x16 .f32)
    (h : Cert.Pre_finite_inputs.fn (F := Ideal) x0 x1 x2 x3 x4 = fun _ => 1#1) (c : Fin 16) (ℓ : Fin 32) (g : Fin 16) :
    ∃ r : ℝ, Cert.ReferenceIdeal.Read.val_main_v10 (F := Ideal) x3 (ix3 c ℓ g) = (r : EReal) := by
  have hB := (pre_elems x0 x1 x2 x3 x4 h).2
  rw [Read.val_main_v10_apply, Read.val_main_v9_apply, Read.val_main_v8_apply, Read.val_main_v7_apply]
  simp only [Read.val_main_v6_apply, Read.val_main_v5_apply, Read.val_main_v4_apply, Read.val_main_v3_apply,
    Read.val_main_v2_apply, Read.val_main_v1_apply, Read.val_main_cst_0_apply, Read.val_main_cst_1_apply]
  -- the sum over the labels runs over the entries of the same (class, group)
  have hk : ∀ k : Fin 32, Read.idx_main_v7 (Read.idx_main_v8 (Read.idx_main_v9 (ix3 c ℓ g))) k = ix3 c k g := fun k => by
    funext a; match a with | ⟨0, _⟩ => rfl | ⟨1, _⟩ => rfl | ⟨2, _⟩ => rfl
  simp only [hk]
  -- the shift, the maximum of the bottom and the maximum over the labels, is a real
  have hM : ∀ k : Fin 32, ∃ m : ℝ, FloatOps.maximumf (F := Ideal) (φ := .f32) (FloatOps.ofBits (F := Ideal) .f32 0xFF800000#32)
      (Read.val_main_v0 (F := Ideal) x3 (Read.idx_main_v3 (Read.idx_main_v4 (ix3 c k g)))) = (m : EReal) := fun k => by
    obtain ⟨m, hm⟩ := v0_real x3 hB (Read.idx_main_v3 (Read.idx_main_v4 (ix3 c k g)))
    refine ⟨m, ?_⟩
    rw [hm]
    change max (Ideal.ofBits .f32 0xFF800000#32) (m : EReal) = m
    rw [ofBits_ninf]
    exact max_bot_left _
  have hz : FloatOps.ofBits (F := Ideal) .f32 0#32 = 0 := Ideal.ofBits_zero_f32
  rw [hz]
  simp only [Ideal.hostDivf_def, Ideal.hostUnary_exp_def, Ideal.subf_def]
  exact softmax_real (fun k => x3 (ix3 c k g)) (fun k => hB _) _ hM ℓ

end Cert.Domain

end
-- ==== Proof.Spec.lean ====
/-
  The mathematics both programs compute, per node and per mixture generator.

  A node with label ℓ has, for generator g and hidden state c, the numerator
      q c = π[c, g] · b[c, ℓ, g]
  (π the softmax of Pi over the hidden states, b the softmax of B over the label alphabet). Its contribution to the
  graph's likelihood for generator g is
      likOf q = Σ_c (q c / Σ_c' q c') · log (q c),
  the posterior-weighted log numerator. The sums are over the 16 hidden states; on the extended reals addition is
  commutative and associative, so the order in which a program adds the 16 terms does not matter.
-/
import Idealize.ShloMosaic.PureOps.Ideal
import Idealize.ShloMosaic.Lib.ValueIdx

noncomputable section

open scoped BigOperators

namespace Cgmm

open Idealize.ShloMosaic Idealize.ShloMosaic.ValueIdx

/-- Lane `16·c + g` of a 256-lane row: hidden state `c`, generator `g`, hidden state major. -/
def lane (c g : Fin 16) : Fin 256 := ⟨16 * c.val + g.val, by omega⟩

theorem lane_val (c g : Fin 16) : (lane c g).val = 16 * c.val + g.val := rfl

/-- One node's likelihood term for one generator, from its 16 numerators `q c`: `Σ_c (q c / Σ q) · log (q c)`. -/
def likOf (q : Fin 16 → EReal) : EReal :=
  ∑ c : Fin 16, Ideal.div (q c) (∑ c' : Fin 16, q c') * Ideal.log (q c)

end Cgmm

end
-- ==== Proof.RefLik.lean ====
/-
  The reference's per-node term read at one element.

  For node n with label ℓ (0 ≤ ℓ < 32: the wrap of negative indices leaves the word as it is and the clamp into
  [0, 31] does not bind) the gather reads row ℓ of b, the numerators are π[c, g] · b[c, ℓ, g], and the two sums over the
  hidden-state axis start from zero, which adds nothing.
-/
import proofs.«417450_j39015482917006_3_alg».proof.Proof.Gen.ReferenceIdeal.Read
import proofs.«417450_j39015482917006_3_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The gather's dimension numbers: offset axes (0, 2), collapsed operand axis 1, start index map (1), index vector axis 1,
    slice sizes (16, 1, 16). -/
private abbrev gd := gather_S16x32x16_S500000x1_S16x500000x16_02_1_n_n_1_1_16116

/-- The gather read at (k, n, g): the table at (k, m, g), m the start word at (n, 0) read signed and clamped into [0, 31]. -/
private theorem gather_read {α : Type} {w : Nat} (x : S16x32x16.Idx → α) (idx : IVec S500000x1 w)
    (k : Fin 16) (n : Fin 500000) (g : Fin 16) (m : Fin 32)
    (hm : min (idx (ix2 n (0 : Fin 1))).toInt.toNat 31 = m.val) :
    Host.gather gd x idx (ix3 k n g) = x (ix3 k m g) := by
  unfold Host.gather
  congr 1
  funext a
  refine Fin.ext ?_
  match a with
  | ⟨0, _⟩ =>
    show gd.start (ix3 k n g) idx 0 + gd.batchCoord (ix3 k n g) 0 + gd.offCoord (ix3 k n g) 0 = k.val
    have h1 : gd.start (ix3 k n g) idx 0 = 0 := rfl
    have h2 : gd.batchCoord (ix3 k n g) 0 = 0 := rfl
    have h3 : gd.offCoord (ix3 k n g) 0 = k.val := rfl
    rw [h1, h2, h3]; omega
  | ⟨1, _⟩ =>
    show gd.start (ix3 k n g) idx 1 + gd.batchCoord (ix3 k n g) 1 + gd.offCoord (ix3 k n g) 1 = m.val
    have h2 : gd.batchCoord (ix3 k n g) 1 = 0 := rfl
    have h3 : gd.offCoord (ix3 k n g) 1 = 0 := rfl
    rw [h2, h3, ← hm]
    show gd.start (ix3 k n g) idx 1 = _
    unfold GatherDims.start
    rw [dif_pos (show (1 : Fin 3) ∈ gd.startIndexMap from List.mem_singleton.mpr rfl)]
    have hsi : gd.siIdx (ix3 k n g) ⟨List.idxOf (1 : Fin 3) gd.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨2, _⟩ =>
    show gd.start (ix3 k n g) idx 2 + gd.batchCoord (ix3 k n g) 2 + gd.offCoord (ix3 k n g) 2 = g.val
    have h1 : gd.start (ix3 k n g) idx 2 = 0 := rfl
    have h2 : gd.batchCoord (ix3 k n g) 2 = 0 := rfl
    have h3 : gd.offCoord (ix3 k n g) 2 = g.val := rfl
    rw [h1, h2, h3]; omega

/-- A label word below 32 is not negative: the signed compare with zero is the bit 0. -/
private theorem slt_zero_label : ∀ ℓ : Fin 32, IntOp.cmpi .slt (BitVec.ofNat 32 ℓ.val) 0#32 = 0#1 := by decide

/-- A label word below 32, read signed and clamped into [0, 31], is the label. -/
private theorem clamp_label : ∀ ℓ : Fin 32, min (BitVec.ofNat 32 ℓ.val).toInt.toNat 31 = ℓ.val := by decide

/-- The start-index word of node n: its label word (no wrap: the label is not negative). -/
private theorem start_word (x0 : (⟨S500000, .i32⟩ : BufTy).Contents (Elt Ideal)) (n : Fin 500000) (ℓ : Fin 32)
    (hx : x0 (ix1 n) = BitVec.ofNat 32 ℓ.val) :
    val_main_v27 (F := Ideal) x0 (ix2 n (0 : Fin 1)) = BitVec.ofNat 32 ℓ.val := by
  rw [val_main_v27_apply]
  have e : idx_main_v27 (ix2 n (0 : Fin 1)) = ix1 n :=
    funext fun a => Fin.ext (by match a with | ⟨0, _⟩ => rfl)
  rw [e, val_main_v26_apply, val_main_v23_apply, val_main_v22_apply, val_main_c_apply, hx, slt_zero_label ℓ, select_zero]

/-- The numerator at (n, k, g): π[k, g] · b[k, ℓ, g]. -/
private theorem v32_read (x0 : (⟨S500000, .i32⟩ : BufTy).Contents (Elt Ideal)) (x3 : (⟨S16x32x16, .f32⟩ : BufTy).Contents (Elt Ideal))
    (x4 : (⟨S16x16, .f32⟩ : BufTy).Contents (Elt Ideal)) (n : Fin 500000) (g : Fin 16) (ℓ : Fin 32)
    (hx : x0 (ix1 n) = BitVec.ofNat 32 ℓ.val) (k : Fin 16) :
    val_main_v32 (F := Ideal) x0 x3 x4 (ix3 n k g)
      = val_main_v21 (F := Ideal) x4 (ix2 k g) * val_main_v10 (F := Ideal) x3 (ix3 k ℓ g) := by
  rw [val_main_v32_apply, val_main_v31_apply, val_main_v30_apply, val_main_v29_apply]
  have e1 : idx_main_v30 (idx_main_v31 (ix3 n k g)) = ix2 k g :=
    funext fun a => Fin.ext (by match a with | ⟨0, _⟩ => rfl | ⟨1, _⟩ => rfl)
  have e2 : idx_main_v29 (ix3 n k g) = ix3 k n g :=
    funext fun a => Fin.ext (by match a with | ⟨0, _⟩ => rfl | ⟨1, _⟩ => rfl | ⟨2, _⟩ => rfl)
  rw [e1, e2]
  unfold val_main_v28
  rw [gather_read (val_main_v10 (F := Ideal) x3) (val_main_v27 (F := Ideal) x0) k n g ℓ
    (by rw [start_word x0 n ℓ hx]; exact clamp_label ℓ)]
  rfl

theorem lik_apply (x0 : (⟨S500000, .i32⟩ : BufTy).Contents (Elt Ideal)) (x3 : (⟨S16x32x16, .f32⟩ : BufTy).Contents (Elt Ideal))
    (x4 : (⟨S16x16, .f32⟩ : BufTy).Contents (Elt Ideal)) (n : Fin 500000) (g : Fin 16) (ℓ : Fin 32)
    (hx : x0 (ix1 n) = BitVec.ofNat 32 ℓ.val) :
    val_main_v39 (F := Ideal) x0 x3 x4 (ix2 n g)
      = Cgmm.likOf fun c => val_main_v21 (F := Ideal) x4 (ix2 c g) * val_main_v10 (F := Ideal) x3 (ix3 c ℓ g) := by
  rw [val_main_v39_apply, val_main_cst_7_apply, Ideal.ofBits_def, Ideal.ofBits_zero_f32, zero_add]
  unfold Cgmm.likOf
  refine Finset.sum_congr rfl fun k _ => ?_
  have ek : idx_main_v39 (ix2 n g) k = ix3 n k g :=
    funext fun a => Fin.ext (by match a with | ⟨0, _⟩ => rfl | ⟨1, _⟩ => rfl | ⟨2, _⟩ => rfl)
  have e35 : idx_main_v34 (idx_main_v35 (ix3 n k g)) = ix2 n g :=
    funext fun a => Fin.ext (by match a with | ⟨0, _⟩ => rfl | ⟨1, _⟩ => rfl)
  rw [ek, val_main_v38_apply, val_main_v36_apply, val_main_v37_apply, val_main_v35_apply, val_main_v34_apply, e35,
    val_main_v33_apply, val_main_cst_6_apply, Ideal.ofBits_def, Ideal.ofBits_zero_f32, zero_add, v32_read x0 x3 x4 n g ℓ hx k]
  have es : ∑ k' : Fin 16, val_main_v32 (F := Ideal) x0 x3 x4 (idx_main_v33 (ix2 n g) k')
      = ∑ c' : Fin 16, val_main_v21 (F := Ideal) x4 (ix2 c' g) * val_main_v10 (F := Ideal) x3 (ix3 c' ℓ g) := by
    refine Finset.sum_congr rfl fun k' _ => ?_
    have ek' : idx_main_v33 (ix2 n g) k' = ix3 n k' g :=
      funext fun a => Fin.ext (by match a with | ⟨0, _⟩ => rfl | ⟨1, _⟩ => rfl | ⟨2, _⟩ => rfl)
    rw [ek', v32_read x0 x3 x4 n g ℓ hx k']
  rw [es]
  simp only [Ideal.mulf_def, Ideal.hostDivf_def, Ideal.hostUnary_log_def]

end Cert.ReferenceIdeal.RefValue

end
-- ==== Proof.HostValue.lean ====
/-
  What the region finds in the arrays the host operations before it wrote, read at an index.

  The host computes b = softmax of B over the label axis and π = softmax of Pi over the hidden-state axis, lays b out
  as a 32 × 256 table whose row is the label and whose lane 16·c + g is (hidden state c, generator g), splits that
  table into a part "hi" and a remainder "lo = table − hi" (on the extended reals a change of float format is the
  identity, so hi is the table itself and lo is table − table), flattens π to 256 lanes in the same lane order, and
  pads the label vector with zeros up to a whole number of blocks of 4096 nodes.
-/
import proofs.«417450_j39015482917006_3_alg».proof.Proof.Gen.KernelIdeal.Frame
import proofs.«417450_j39015482917006_3_alg».proof.Proof.Gen.ReferenceIdeal.Read
import proofs.«417450_j39015482917006_3_alg».proof.Proof.Spec
import Idealize.ShloMosaic.Lib.StableHlo.Run
import Idealize.ShloMosaic.Lib.ValueIdx
import Idealize.ShloMosaic.Lib.Pipeline.Value
import Idealize.ShloMosaic.Lib.KernelVsHost

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

/-! ## Layout operations at an index, over any operand -/

/-- Row ℓ, lane 16·c + g of the transposed and flattened table is entry (c, ℓ, g) of the [16, 32, 16] operand. -/
theorem table_read (sb : FVec Ideal S16x32x16 .f32) (ℓ : Fin 32) (c' g : Fin 16) :
    shapeCast S32x256 (transpose S32x16x16 [1, 0, 2] sb transposes_S16x32x16_S32x16x16_1_0_2) shapeCasts_S32x16x16_S32x256
      (ix2 ℓ (Cgmm.lane c' g)) = sb (ix3 c' ℓ g) := by
  refine (shapeCast_apply _ shapeCasts_S32x16x16_S32x256 (ix2 ℓ (Cgmm.lane c' g)) (ix3 ℓ c' g) ?_).trans ?_
  · rw [Shape.rowMajor_val_three, Shape.rowMajor_val_two]
    show (ℓ.val * 16 + c'.val) * 16 + g.val = ℓ.val * 256 + (16 * c'.val + g.val)
    omega
  · exact transpose_apply [1, 0, 2] sb transposes_S16x32x16_S32x16x16_1_0_2 (ix3 ℓ c' g) (ix3 c' ℓ g)
      (fun b => match b with | ⟨0, _⟩ => rfl | ⟨1, _⟩ => rfl | ⟨2, _⟩ => rfl)

/-- Lane 16·c + g of the flattened [16, 16] operand is its entry (c, g). -/
theorem flat_read (sp : FVec Ideal S16x16 .f32) (c' g : Fin 16) :
    shapeCast S256 sp shapeCasts_S16x16_S256 (ix1 (Cgmm.lane c' g)) = sp (ix2 c' g) := by
  refine shapeCast_apply _ shapeCasts_S16x16_S256 (ix1 (Cgmm.lane c' g)) (ix2 c' g) ?_
  rw [Shape.rowMajor_val_two, Shape.rowMajor_val_one]
  show c'.val * 16 + g.val = 16 * c'.val + g.val
  omega

/-- The padded label vector is the label vector on the first 500000 places … -/
theorem pad_read_lt (x : IVec S500000 32) (v : IVec S_ 32) (n : Fin 503808) (h : n.val < 500000) :
    pad S503808 ![0] ![3808] ![0] x v pads_S500000_S503808_038080 h_S_ (ix1 n) = x (ix1 ⟨n.val, h⟩) := by
  refine pad_apply_of_inside _ _ _ x v pads_S500000_S503808_038080 h_S_ (ix1 n) (ix1 ⟨n.val, h⟩) (fun a => ?_)
  match a with
  | ⟨0, _⟩ => show n.val = 0 + n.val * (0 + 1); omega

/-- … and the padding value on the last 3808. -/
theorem pad_read_ge (x : IVec S500000 32) (v : IVec S_ 32) (n : Fin 503808) (h : ¬ n.val < 500000) :
    pad S503808 ![0] ![3808] ![0] x v pads_S500000_S503808_038080 h_S_ (ix1 n) = v (Shape.Idx.first h_S_) := by
  refine pad_apply_of_not_inside _ _ _ x v pads_S500000_S503808_038080 h_S_ (ix1 n) ⟨0, by decide⟩ (fun hin => h ?_)
  have h3 : (n.val - 0) / (0 + 1) < 500000 := hin.2.2
  omega

/-! ## The arrays as the region finds them -/

variable (m : (ℓ : Loc nD τ sig) → Buf (Elt Ideal) ℓ)

/-- b: the softmax of B over the label axis (the host operations that compute it are the same in both programs; it is
    named here by the reference's stage and never opened). -/
abbrev smB (c : Dev nD) : FVec Ideal S16x32x16 .f32 :=
  Cert.ReferenceIdeal.Read.val_main_v10 (F := Ideal) (m ((c : Thread nD τ).loc main_arg3))
/-- π: the softmax of Pi over the hidden-state axis. -/
abbrev smPi (c : Dev nD) : FVec Ideal S16x16 .f32 :=
  Cert.ReferenceIdeal.Read.val_main_v21 (F := Ideal) (m ((c : Thread nD τ).loc main_arg4))

/-- The flattened table of b. -/
abbrev tableB (c : Dev nD) : FVec Ideal S32x256 .f32 :=
  shapeCast S32x256 (transpose S32x16x16 [1, 0, 2] (smB m c) transposes_S16x32x16_S32x16x16_1_0_2) shapeCasts_S32x16x16_S32x256

set_option maxHeartbeats 2000000 in
/-- Window 1's array: the table of b (its change of format is the identity). -/
theorem V_hi (c : Dev nD) : V m c main_v25 = (truncf .bf16 (tableB m c) bitsLt_bf16_f32 : FVec Ideal S32x256 .bf16) := by
  dsimp only [V, V0]
  simp only [hostOps0, hostOps0_1, List.flatten_cons, List.flatten_nil, List.append_nil, List.cons_append, List.nil_append]
  after_results_simp
  rfl

set_option maxHeartbeats 2000000 in
/-- Window 2's array: the table less itself. -/
theorem V_lo (c : Dev nD) : V m c main_v28
    = (truncf .bf16 (subf (tableB m c) (extf .f32 (truncf .bf16 (tableB m c) bitsLt_bf16_f32 : FVec Ideal S32x256 .bf16) bitsLt_bf16_f32)) bitsLt_bf16_f32 : FVec Ideal S32x256 .bf16) := by
  dsimp only [V, V0]
  simp only [hostOps0, hostOps0_1, List.flatten_cons, List.flatten_nil, List.append_nil, List.cons_append, List.nil_append]
  after_results_simp
  rfl

set_option maxHeartbeats 2000000 in
/-- Window 3's array: π flattened. -/
theorem V_pi (c : Dev nD) : V m c main_v24 = (shapeCast S256 (smPi m c) shapeCasts_S16x16_S256 : FVec Ideal S256 .f32) := by
  dsimp only [V, V0]
  simp only [hostOps0, hostOps0_1, List.flatten_cons, List.flatten_nil, List.append_nil, List.cons_append, List.nil_append]
  after_results_simp
  rfl

set_option maxHeartbeats 2000000 in
/-- Window 0's array: the labels padded with the zero word. -/
theorem V_xpad (c : Dev nD) : V m c main_v29
    = (pad S503808 ![0] ![3808] ![0] (m ((c : Thread nD τ).loc main_arg0)) (constantI S_ 32 0#32) pads_S500000_S503808_038080 h_S_ : IVec S503808 32) := by
  dsimp only [V, V0]
  simp only [hostOps0, hostOps0_1, List.flatten_cons, List.flatten_nil, List.append_nil, List.cons_append, List.nil_append]
  after_results_simp
  rfl

/-! ## … read at an index -/

theorem hi_at (c : Dev nD) (ℓ : Fin 32) (c' g : Fin 16) :
    V m c main_v25 (ix2 ℓ (Cgmm.lane c' g)) = smB m c (ix3 c' ℓ g) := by
  rw [V_hi]
  exact table_read (smB m c) ℓ c' g

theorem lo_at (c : Dev nD) (ℓ : Fin 32) (c' g : Fin 16) :
    V m c main_v28 (ix2 ℓ (Cgmm.lane c' g)) = smB m c (ix3 c' ℓ g) - smB m c (ix3 c' ℓ g) := by
  rw [V_lo]
  show tableB m c (ix2 ℓ (Cgmm.lane c' g)) - tableB m c (ix2 ℓ (Cgmm.lane c' g)) = _
  rw [show tableB m c (ix2 ℓ (Cgmm.lane c' g)) = smB m c (ix3 c' ℓ g) from table_read (smB m c) ℓ c' g]

theorem pi_at (c : Dev nD) (c' g : Fin 16) :
    V m c main_v24 (ix1 (Cgmm.lane c' g)) = smPi m c (ix2 c' g) := by
  rw [V_pi]
  exact flat_read (smPi m c) c' g

theorem xpad_at_lt (c : Dev nD) (n : Fin 503808) (h : n.val < 500000) :
    V m c main_v29 (ix1 n) = m ((c : Thread nD τ).loc main_arg0) (ix1 ⟨n.val, h⟩) := by
  rw [V_xpad]
  exact pad_read_lt _ _ n h

theorem xpad_at_ge (c : Dev nD) (n : Fin 503808) (h : ¬ n.val < 500000) :
    V m c main_v29 (ix1 n) = 0#32 := by
  rw [V_xpad]
  exact pad_read_ge _ _ n h

end Cert.KernelIdeal.HostValue

end
-- ==== Proof.Payload.lean ====
/-
  One grid point's arithmetic read at one output element.

  Row r of a block holds a node whose label word is ℓ < 32. The product of its one-hot row with a 32 × 256 table is
  row ℓ of the table (0 · a = 0 and 1 · a = a for every extended real a). The 256 lanes hold, at lane 16·c + g, the
  numerator of hidden state c and generator g. Adding to a row its cyclic shifts by 16, 32, 64 and 128 lanes leaves at
  every lane the sum over the 16 lanes of its residue class modulo 16, that is the sum over the hidden states for the
  lane's generator: each doubling joins two runs of equally spaced lanes into one run of twice the length, and sixteen
  steps of 16 lanes go once around the 256. Output entry (g, r) is lane g of the second such sum.
-/
import proofs.«417450_j39015482917006_3_alg».proof.Proof.Gen.KernelIdeal.Skeleton
import proofs.«417450_j39015482917006_3_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws

noncomputable section

open scoped BigOperators

namespace Cert.KernelIdeal.PayloadValue

open Cert.KernelIdeal Cert.KernelIdeal.Gen Idealize.ShloMosaic Idealize.ShloMosaic.ValueIdx

section RollTree
variable {M : Type} [AddCommMonoid M]

/-- `F` added up at the `n` points `j, j + d, …, j + (n − 1)·d`. -/
def stepSum (F : ℕ → M) (d n j : ℕ) : M := ∑ k ∈ Finset.range n, F (j + k * d)

/-- Two runs of `n` points, the second starting where the first ends, are one run of `2n` points. -/
theorem stepSum_double (F : ℕ → M) (d n j : ℕ) :
    stepSum F d n j + stepSum F d n (j + n * d) = stepSum F d (n + n) j := by
  unfold stepSum
  rw [Finset.sum_range_add]
  refine congrArg (_ + ·) (Finset.sum_congr rfl fun k _ => ?_)
  exact congrArg F (by ring)

/-- Row `r` of a 4096 × 256 array as a function of a natural number, read around the 256 lanes. -/
def rowFn (x : S4096x256.Idx → M) (r : Fin 4096) (n : ℕ) : M :=
  x (ix2 r (⟨n % 256, Nat.mod_lt _ (by decide)⟩ : Fin 256))

/-- A rotation by `a ≤ 256` lanes read at lane `n mod 256` of row `r` is the operand `256 − a` lanes further on, around the end. -/
theorem rotate_rowFn (x : S4096x256.Idx → M) (h : S4096x256.Rotates 1 none) (s : BitVec 32) (a : ℕ) (hs : s.toNat = a)
    (ha : a ≤ 256) (r : Fin 4096) (n : ℕ) :
    dynamicRotate 1 s none x h (ix2 r (⟨n % 256, Nat.mod_lt _ (by decide)⟩ : Fin 256)) = rowFn x r (n + (256 - a)) := by
  unfold rowFn
  refine dynamicRotate_apply 1 s x h _ _ fun b => ?_
  match b with
  | ⟨0, _⟩ => rfl
  | ⟨1, _⟩ =>
    show (n + (256 - a)) % 256 = (n % 256 + 256 - s.toNat % 256) % 256
    rw [hs]; omega

theorem rowFn_congr (x : S4096x256.Idx → M) (r : Fin 4096) {n n' : ℕ} (hn : n % 256 = n' % 256) :
    rowFn x r n = rowFn x r n' := by
  unfold rowFn
  exact congrArg (fun t : Fin 256 => x (ix2 r t)) (Fin.ext hn)

theorem stepSum_rowFn_congr (x : S4096x256.Idx → M) (r : Fin 4096) (d m : ℕ) {n n' : ℕ} (hn : n % 256 = n' % 256) :
    stepSum (rowFn x r) d m n = stepSum (rowFn x r) d m n' := by
  unfold stepSum
  refine Finset.sum_congr rfl fun k _ => rowFn_congr x r ?_
  rw [Nat.add_mod, hn, ← Nat.add_mod]

/-- One rotate-and-add step: if `y` holds runs of `m` points of `x` spaced `d` apart, and the rotation moves a lane on by
    `m·d` around the end, then `y` plus its rotation holds runs of `2m` points. -/
theorem step_rowFn (x y : S4096x256.Idx → M) (h : S4096x256.Rotates 1 none) (s : BitVec 32) (a : ℕ) (hs : s.toNat = a)
    (ha : a ≤ 256) (r : Fin 4096) (d m : ℕ) (hm : (256 - a) % 256 = (m * d) % 256)
    (hy : ∀ n, rowFn y r n = stepSum (rowFn x r) d m n) (n : ℕ) :
    rowFn (fun i => y i + dynamicRotate 1 s none y h i) r n = stepSum (rowFn x r) d (m + m) n := by
  have e1 : rowFn y r n = stepSum (rowFn x r) d m n := hy n
  have e2 : dynamicRotate 1 s none y h (ix2 r (⟨n % 256, Nat.mod_lt _ (by decide)⟩ : Fin 256))
      = stepSum (rowFn x r) d m (n + m * d) := by
    rw [rotate_rowFn y h s a hs ha r n, hy]
    refine stepSum_rowFn_congr x r d m ?_
    rw [Nat.add_mod, hm, ← Nat.add_mod]
  refine Eq.trans ?_ (stepSum_double (rowFn x r) d m n)
  exact congr (congrArg (· + ·) e1) e2

/-- The four rotate-and-add steps, by 16, 32, 64 and 128 lanes. -/
def rollTree (h : S4096x256.Rotates 1 none) (x : S4096x256.Idx → M) : S4096x256.Idx → M :=
  let t1 : S4096x256.Idx → M := fun i => x i + dynamicRotate 1 16#32 none x h i
  let t2 : S4096x256.Idx → M := fun i => t1 i + dynamicRotate 1 32#32 none t1 h i
  let t3 : S4096x256.Idx → M := fun i => t2 i + dynamicRotate 1 64#32 none t2 h i
  fun i => t3 i + dynamicRotate 1 128#32 none t3 h i

/-- After the four steps every lane holds the 16 values spaced 16 lanes apart, backwards around the end. -/
theorem rollTree_rowFn (h : S4096x256.Rotates 1 none) (x : S4096x256.Idx → M) (r : Fin 4096) (n : ℕ) :
    rowFn (rollTree h x) r n = stepSum (rowFn x r) 240 16 n := by
  have h0 : ∀ n, rowFn x r n = stepSum (rowFn x r) 240 1 n := fun n => by
    unfold stepSum; rw [Finset.sum_range_one, Nat.zero_mul, Nat.add_zero]
  have h1 := step_rowFn x x h 16#32 16 rfl (by decide) r 240 1 (by decide) h0
  have h2 := step_rowFn x _ h 32#32 32 rfl (by decide) r 240 2 (by decide) h1
  have h3 := step_rowFn x _ h 64#32 64 rfl (by decide) r 240 4 (by decide) h2
  exact step_rowFn x _ h 128#32 128 rfl (by decide) r 240 8 (by decide) h3 n

/-- Hidden state `c₀ − k` around the 16 states: the state whose lane the `k`-th step back from state `c₀` reaches. -/
def backEquiv (c0 : Fin 16) : Fin 16 ≃ Fin 16 where
  toFun k := ⟨(c0.val + 15 * k.val) % 16, Nat.mod_lt _ (by decide)⟩
  invFun c := ⟨(c0.val + 15 * c.val) % 16, Nat.mod_lt _ (by decide)⟩
  left_inv k := Fin.ext (by
    have := k.isLt; have := c0.isLt
    show (c0.val + 15 * ((c0.val + 15 * k.val) % 16)) % 16 = k.val
    omega)
  right_inv c := Fin.ext (by
    have := c.isLt; have := c0.isLt
    show (c0.val + 15 * ((c0.val + 15 * c.val) % 16)) % 16 = c.val
    omega)

/-- At the lane of hidden state `c₀` and generator `g` the 16 values are those of the 16 hidden states at generator `g`. -/
theorem rollTree_lane (h : S4096x256.Rotates 1 none) (x : S4096x256.Idx → M) (r : Fin 4096) (c0 g : Fin 16) :
    rollTree h x (ix2 r (Cgmm.lane c0 g)) = ∑ c : Fin 16, x (ix2 r (Cgmm.lane c g)) := by
  have hl : Cgmm.lane c0 g = (⟨(16 * c0.val + g.val) % 256, Nat.mod_lt _ (by decide)⟩ : Fin 256) :=
    Fin.ext (by have := c0.isLt; have := g.isLt; show 16 * c0.val + g.val = (16 * c0.val + g.val) % 256; omega)
  rw [hl]
  refine (rollTree_rowFn h x r (16 * c0.val + g.val)).trans ?_
  unfold stepSum
  rw [Finset.sum_range, ← Equiv.sum_comp (backEquiv c0)]
  refine Finset.sum_congr rfl fun k _ => ?_
  unfold rowFn
  refine congrArg (fun t : Fin 256 => x (ix2 r t)) (Fin.ext ?_)
  have := k.isLt; have := c0.isLt; have := g.isLt
  show (16 * c0.val + g.val + ((c0.val + 15 * k.val) % 16) * 240) % 256 = 16 * k.val + g.val
  omega

end RollTree

section OneHot

/-- The label word of row `r`, broadcast along the 32 label columns. -/
theorem label_bcast_apply (x0 : Vec Ideal S4096 .i32) (h1 : S4096.ShapeCasts S4096) (h3 : S4096.ShapeCasts S4096x1)
    (h4 : S4096x1.Broadcasts S4096x32) (r : Fin 4096) (m : Fin 32) :
    (broadcastTo S4096x32 (shapeCast S4096x1 (shapeCast S4096 x0 h1 : IVec S4096 32) h3 : IVec S4096x1 32) h4 : IVec S4096x32 32) (ix2 r m)
      = x0 (ix1 r) := by
  refine (broadcastTo_apply _ h4 (ix2 r m) (ix2 r (0 : Fin 1)) ?_).trans ?_
  · intro a
    match a with
    | ⟨0, _⟩ => rfl
    | ⟨1, _⟩ => rfl
  refine (shapeCast_apply _ h3 (ix2 r (0 : Fin 1)) (ix1 r) ?_).trans ?_
  · rw [Shape.rowMajor_val_one, Shape.rowMajor_val_two]
    show r.val = r.val * 1 + 0
    omega
  rw [shapeCast_self]

/-- Two label words below 32 are equal exactly when the labels are. -/
theorem ofNat32_eq_iff (a b : Fin 32) : BitVec.ofNat 32 a.val = BitVec.ofNat 32 b.val ↔ a = b := by
  constructor
  · intro h
    have h' := congrArg BitVec.toNat h
    rw [BitVec.toNat_ofNat, BitVec.toNat_ofNat] at h'
    have := a.isLt; have := b.isLt
    exact Fin.ext (by omega)
  · rintro rfl; rfl

/-- The comparison bit of a word with itself is 1 … -/
theorem cmpi_eq_self (a : BitVec 32) : IntOp.cmpi .eq a a = 1#1 := by simp [IntOp.cmpi]

/-- … and of two different words 0. -/
theorem cmpi_eq_of_ne {a b : BitVec 32} (h : a ≠ b) : IntOp.cmpi .eq a b = 0#1 := by
  have hb : (a == b) = false := beq_eq_false_iff_ne.mpr h
  simp [IntOp.cmpi, hb]

/-- Row `r` of the one-hot matrix: 1 at the row's label, 0 elsewhere. -/
theorem onehot_apply (x0 : Vec Ideal S4096 .i32) (h1 : S4096.ShapeCasts S4096) (h3 : S4096.ShapeCasts S4096x1)
    (h4 : S4096x1.Broadcasts S4096x32) (hio : S4096x32.Iotas .tc 32 [1]) (h6 : 1 < 32) (h8 : FTy.bits .bf16 < FTy.bits .f32)
    (r : Fin 4096) (ℓ : Fin 32) (hx : x0 (ix1 r) = BitVec.ofNat 32 ℓ.val) (m : Fin 32) :
    (truncf .bf16 (sitofp .f32 (extui 32 (cmpi .eq
        (broadcastTo S4096x32 (shapeCast S4096x1 (shapeCast S4096 x0 h1 : IVec S4096 32) h3 : IVec S4096x1 32) h4 : IVec S4096x32 32)
        (iota .tc S4096x32 32 [1] hio)) h6) : FVec Ideal S4096x32 .f32) h8 : FVec Ideal S4096x32 .bf16) (ix2 r m)
      = if m = ℓ then (1 : EReal) else 0 := by
  have e2 : iota .tc S4096x32 32 [1] hio (ix2 r m) = BitVec.ofNat 32 m.val := iota_single_apply _ _ _ _ hio _
  show ((((IntOp.cmpi .eq
      ((broadcastTo S4096x32 (shapeCast S4096x1 (shapeCast S4096 x0 h1 : IVec S4096 32) h3 : IVec S4096x1 32) h4 : IVec S4096x32 32) (ix2 r m))
      (iota .tc S4096x32 32 [1] hio (ix2 r m))).setWidth 32).toInt : ℝ) : EReal) = _
  rw [label_bcast_apply, e2, hx, toInt_setWidth_bit]
  by_cases hm : m = ℓ
  · subst hm
    rw [if_pos rfl, cmpi_eq_self]
    norm_num
  · rw [if_neg hm]
    rw [cmpi_eq_of_ne fun h => hm ((ofNat32_eq_iff ℓ m).mp h).symm]
    norm_num

end OneHot

section Matmul

theorem dotLhs0 (j : S4096x256.Idx) (k : dot_S4096x32_S32x256_S4096x256_1_0_0_1_n_n.contr.Idx) :
    (dot_S4096x32_S32x256_S4096x256_1_0_0_1_n_n.lhsIdx j k 0).val = (j 0).val := rfl

theorem dotLhs1 (j : S4096x256.Idx) (k : dot_S4096x32_S32x256_S4096x256_1_0_0_1_n_n.contr.Idx) :
    (dot_S4096x32_S32x256_S4096x256_1_0_0_1_n_n.lhsIdx j k 1).val = (k ⟨0, by decide⟩).val :=
  dot_S4096x32_S32x256_S4096x256_1_0_0_1_n_n.lhsIdx_val_of_single rfl j k

theorem dotRhs0 (j : S4096x256.Idx) (k : dot_S4096x32_S32x256_S4096x256_1_0_0_1_n_n.contr.Idx) :
    (dot_S4096x32_S32x256_S4096x256_1_0_0_1_n_n.rhsIdx j k 0).val = (k ⟨0, by decide⟩).val :=
  dot_S4096x32_S32x256_S4096x256_1_0_0_1_n_n.rhsIdx_val_of_single rfl j k

theorem dotRhs1 (j : S4096x256.Idx) (k : dot_S4096x32_S32x256_S4096x256_1_0_0_1_n_n.contr.Idx) :
    (dot_S4096x32_S32x256_S4096x256_1_0_0_1_n_n.rhsIdx j k 1).val = (j 1).val := rfl

/-- A matrix whose row `r` is 1 at column `ℓ` and 0 elsewhere, times `w`, has row `ℓ` of `w` as its row `r`: every other
    term of the sum is `0 · w = 0`, which holds on the extended reals for every `w`. -/
theorem onehot_matmul_apply (v8 : FVec Ideal S4096x32 .bf16) (w : FVec Ideal S32x256 .bf16) (r : Fin 4096) (j : Fin 256) (ℓ : Fin 32)
    (h8 : ∀ m : Fin 32, v8 (ix2 r m) = if m = ℓ then (1 : EReal) else 0) :
    (matmul dot_S4096x32_S32x256_S4096x256_1_0_0_1_n_n none v8 w (constant S4096x256 .f32 0x00000000#32) : FVec Ideal S4096x256 .f32) (ix2 r j)
      = w (ix2 ℓ j) := by
  show FloatOps.matmul dot_S4096x32_S32x256_S4096x256_1_0_0_1_n_n none v8 w (constant S4096x256 .f32 0x00000000#32) (ix2 r j) = _
  rw [Ideal.matmul_constant_zero_apply, ← Equiv.sum_comp (contrEquiv1 dot_S4096x32_S32x256_S4096x256_1_0_0_1_n_n 32 rfl rfl).symm]
  have hl : ∀ m : Fin 32, dot_S4096x32_S32x256_S4096x256_1_0_0_1_n_n.lhsIdx (ix2 r j)
      ((contrEquiv1 dot_S4096x32_S32x256_S4096x256_1_0_0_1_n_n 32 rfl rfl).symm m) = ix2 r m := fun m => by
    funext ax; apply Fin.ext
    match ax with
    | ⟨0, _⟩ => exact dotLhs0 _ _
    | ⟨1, _⟩ => exact (dotLhs1 _ _).trans (contrEquiv1_symm_val dot_S4096x32_S32x256_S4096x256_1_0_0_1_n_n 32 rfl rfl m)
  have hr : ∀ m : Fin 32, dot_S4096x32_S32x256_S4096x256_1_0_0_1_n_n.rhsIdx (ix2 r j)
      ((contrEquiv1 dot_S4096x32_S32x256_S4096x256_1_0_0_1_n_n 32 rfl rfl).symm m) = ix2 m j := fun m => by
    funext ax; apply Fin.ext
    match ax with
    | ⟨0, _⟩ => exact (dotRhs0 _ _).trans (contrEquiv1_symm_val dot_S4096x32_S32x256_S4096x256_1_0_0_1_n_n 32 rfl rfl m)
    | ⟨1, _⟩ => exact dotRhs1 _ _
  rw [Finset.sum_eq_single ℓ]
  · rw [hl, hr, h8, if_pos rfl, one_mul]
  · intro m _ hm
    rw [hl, h8, if_neg hm, zero_mul]
  · intro h
    exact absurd (Finset.mem_univ ℓ) h

end Matmul

section Body

/-- The numerators `π · (hi + lo)` of every row and lane, as the kernel computes them: the one-hot matrix of the labels
    times each half of the emission table, the two products added, times `π` broadcast down the rows. -/
def numer (x0 : Vec Ideal S4096 .i32) (hi lo : Vec Ideal S32x256 .bf16) (pi : Vec Ideal S256 .f32) : FVec Ideal S4096x256 .f32 :=
  have v1 : IVec S4096 32 := shapeCast S4096 x0 shapeCasts_S4096_S4096
  have v2 : IVec S4096x32 32 := iota .tc S4096x32 32 [1] iota_S4096x32_d1_w32
  have v3 : IVec S4096x1 32 := shapeCast S4096x1 v1 shapeCasts_S4096_S4096x1
  have v4 : IVec S4096x32 32 := broadcastTo S4096x32 v3 broadcasts_S4096x1_S4096x32
  have v5 : IVec S4096x32 1 := cmpi .eq v4 v2
  have v6 : IVec S4096x32 32 := extui 32 v5 natLt_1_32
  have v7 : FVec Ideal S4096x32 .f32 := sitofp .f32 v6
  have v8 : FVec Ideal S4096x32 .bf16 := truncf .bf16 v7 bitsLt_bf16_f32
  have v10 : FVec Ideal S32x256 .bf16 := shapeCast S32x256 hi shapeCasts_S32x256_S32x256
  have v12 : FVec Ideal S32x256 .bf16 := shapeCast S32x256 lo shapeCasts_S32x256_S32x256
  have cst : FVec Ideal S4096x256 .f32 := constant S4096x256 .f32 0x00000000#32
  have v13 : FVec Ideal S4096x256 .f32 := matmul dot_S4096x32_S32x256_S4096x256_1_0_0_1_n_n none v8 v10 cst
  have cst_4 : FVec Ideal S4096x256 .f32 := constant S4096x256 .f32 0x00000000#32
  have v14 : FVec Ideal S4096x256 .f32 := matmul dot_S4096x32_S32x256_S4096x256_1_0_0_1_n_n none v8 v12 cst_4
  have v15 : FVec Ideal S4096x256 .f32 := addf v13 v14
  have v17 : FVec Ideal S256 .f32 := shapeCast S256 pi shapeCasts_S256_S256
  have v18 : FVec Ideal S1x256 .f32 := shapeCast S1x256 v17 shapeCasts_S256_S1x256
  have v19 : FVec Ideal S4096x256 .f32 := broadcastTo S4096x256 v18 broadcasts_S1x256_S4096x256
  mulf v19 v15

/-- From the numerators to the output: the row sums over the hidden states by the roll tree, the posterior-weighted log
    numerators, their sums by the roll tree again, the first 16 lanes, transposed. -/
def likOut (v20 : FVec Ideal S4096x256 .f32) : FVec Ideal S16x4096 .f32 :=
  have v28 : FVec Ideal S4096x256 .f32 := rollTree (M := EReal) rotates_S4096x256_d1 v20
  have v29 : FVec Ideal S4096x256 .f32 := divf v20 v28
  have v30 : FVec Ideal S4096x256 .f32 := log v20
  have v31 : FVec Ideal S4096x256 .f32 := mulf v29 v30
  have v39 : FVec Ideal S4096x256 .f32 := rollTree (M := EReal) rotates_S4096x256_d1 v31
  have v40 : FVec Ideal S4096x16 .f32 := extractStridedSlice S4096x16 ![0, 0] v39 slices_S4096x256_o0_0_S4096x16
  transpose S16x4096 [1, 0] v40 transposes_S4096x16_p1_0_S16x4096

/-- The kernel body's arithmetic is the two stages composed. -/
theorem k0_pay1_eq (x0 : Vec Ideal S4096 .i32) (hi lo : Vec Ideal S32x256 .bf16) (pi : Vec Ideal S256 .f32) :
    k0_pay1 (F := Ideal) x0 hi lo pi = likOut (numer x0 hi lo pi) := rfl

end Body

section Read

/-- The numerator at row `r` (a node whose label is `ℓ`) and lane `j`: `π[j] · (hi[ℓ, j] + lo[ℓ, j])`. -/
theorem numer_apply (x0 : Vec Ideal S4096 .i32) (hi lo : Vec Ideal S32x256 .bf16) (pi : Vec Ideal S256 .f32)
    (r : Fin 4096) (ℓ : Fin 32) (hx : x0 (ix1 r) = BitVec.ofNat 32 ℓ.val) (j : Fin 256) :
    numer x0 hi lo pi (ix2 r j) = pi (ix1 j) * (hi (ix2 ℓ j) + lo (ix2 ℓ j)) := by
  have h8 := onehot_apply x0 shapeCasts_S4096_S4096 shapeCasts_S4096_S4096x1 broadcasts_S4096x1_S4096x32
    iota_S4096x32_d1_w32 natLt_1_32 bitsLt_bf16_f32 r ℓ hx
  have e13 := (onehot_matmul_apply _ (shapeCast S32x256 hi shapeCasts_S32x256_S32x256) r j ℓ h8).trans
    (congrFun (shapeCast_self hi shapeCasts_S32x256_S32x256) (ix2 ℓ j))
  have e14 := (onehot_matmul_apply _ (shapeCast S32x256 lo shapeCasts_S32x256_S32x256) r j ℓ h8).trans
    (congrFun (shapeCast_self lo shapeCasts_S32x256_S32x256) (ix2 ℓ j))
  have e19 : (broadcastTo S4096x256 (shapeCast S1x256 (shapeCast S256 pi shapeCasts_S256_S256 : FVec Ideal S256 .f32)
      shapeCasts_S256_S1x256 : FVec Ideal S1x256 .f32) broadcasts_S1x256_S4096x256 : FVec Ideal S4096x256 .f32) (ix2 r j)
      = pi (ix1 j) := by
    refine (broadcastTo_apply _ broadcasts_S1x256_S4096x256 (ix2 r j) (ix2 (0 : Fin 1) j) ?_).trans ?_
    · intro a
      match a with
      | ⟨0, _⟩ => rfl
      | ⟨1, _⟩ => rfl
    refine (shapeCast_apply _ shapeCasts_S256_S1x256 (ix2 (0 : Fin 1) j) (ix1 j) ?_).trans ?_
    · rw [Shape.rowMajor_val_one, Shape.rowMajor_val_two]
      show j.val = 0 * 256 + j.val
      omega
    rw [shapeCast_self]
  exact congr (congrArg HMul.hMul e19) (congr (congrArg HAdd.hAdd e13) e14)

/-- The output at generator `g` and row `r` is the likelihood term of the row's 16 numerators at generator `g`. -/
theorem likOut_apply (v20 : FVec Ideal S4096x256 .f32) (g : Fin 16) (r : Fin 4096) :
    likOut v20 (ix2 g r) = Cgmm.likOf fun c => v20 (ix2 r (Cgmm.lane c g)) := by
  unfold likOut
  dsimp only
  refine (transpose_apply [1, 0] _ transposes_S4096x16_p1_0_S16x4096 (ix2 g r) (ix2 r g) ?_).trans ?_
  · intro b
    match b with
    | ⟨0, _⟩ => rfl
    | ⟨1, _⟩ => rfl
  refine (extractStridedSlice_apply ![0, 0] _ slices_S4096x256_o0_0_S4096x16 (ix2 r g) (ix2 r (Cgmm.lane 0 g)) ?_).trans ?_
  · intro a
    match a with
    | ⟨0, _⟩ => show r.val = 0 + r.val; omega
    | ⟨1, _⟩ => show 16 * 0 + g.val = 0 + g.val; omega
  refine (rollTree_lane rotates_S4096x256_d1 _ r 0 g).trans ?_
  unfold Cgmm.likOf
  refine Finset.sum_congr rfl fun c _ => ?_
  show Ideal.div (v20 (ix2 r (Cgmm.lane c g))) (rollTree (M := EReal) rotates_S4096x256_d1 v20 (ix2 r (Cgmm.lane c g)))
      * Ideal.log (v20 (ix2 r (Cgmm.lane c g))) = _
  rw [rollTree_lane]

end Read

/-- The kernel body's result at generator `g` and row `r`, a node with label `ℓ`: the likelihood term of the numerators
    `q c = π[c, g] · (hi[ℓ, c, g] + lo[ℓ, c, g])`. -/
theorem pay_apply (x0 : Vec Ideal S4096 .i32) (hi lo : Vec Ideal S32x256 .bf16) (pi : Vec Ideal S256 .f32)
    (g : Fin 16) (r : Fin 4096) (ℓ : Fin 32) (hx : x0 (ix1 r) = BitVec.ofNat 32 ℓ.val) :
    k0_pay1 (F := Ideal) x0 hi lo pi (ix2 g r)
      = Cgmm.likOf fun c => pi (ix1 (Cgmm.lane c g)) * (hi (ix2 ℓ (Cgmm.lane c g)) + lo (ix2 ℓ (Cgmm.lane c g))) := by
  rw [k0_pay1_eq, likOut_apply]
  exact congrArg Cgmm.likOf (funext fun c => numer_apply x0 hi lo pi r ℓ hx (Cgmm.lane c g))

end Cert.KernelIdeal.PayloadValue

end
-- ==== Proof.KernelValue.lean ====
/-
  The kernel's output array, index by index.

  Grid point t handles nodes 4096·t … 4096·t + 4095: it reads that block of the padded label vector, the whole table
  of b (twice: the part "hi" and the remainder "lo"), the whole flattened π, and writes block (0, t) of the
  [16, 503808] output, whose entry (g, n) is the likelihood term of node n for generator g. Since b is real-valued,
  hi + lo = b + (b − b) = b. The 123 blocks tile the output, so the array ends as ONE function of the index.
-/
import proofs.«417450_j39015482917006_3_alg».proof.Proof.Gen.KernelIdeal.Frame
import proofs.«417450_j39015482917006_3_alg».proof.Proof.HostValue
import proofs.«417450_j39015482917006_3_alg».proof.Proof.Payload
import proofs.«417450_j39015482917006_3_alg».proof.Proof.Spec
import Idealize.ShloMosaic.Lib.ValueIdx
import Idealize.ShloMosaic.Lib.Pipeline.Value

noncomputable section

namespace Cert.KernelIdeal.KValue

open Cert.KernelIdeal Cert.KernelIdeal.Gen Cert.KernelIdeal.HostValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz1 : (![0] : Fin 1 → Nat) = fun _ => 0 := funext fun a => by fin_cases a <;> rfl
theorem hz2 : (![0, 0] : Fin 2 → Nat) = fun _ => 0 := funext fun a => by fin_cases a <;> rfl

/-- The printed index maps over the grid: the label window and the output window move with the point, the three
    table windows stay at block 0. -/
theorem idx_facts : ∀ t : Fin cfg0.N, win0_0.index t (0 : Fin 1) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = t.val :=
  (by decide +kernel : ∀ t : Fin grid0.N, _)

theorem pt_lt (t : Fin cfg0.N) (r : Fin 4096) : 4096 * t.val + r.val < 503808 := by
  have h : t.val < 123 := lt_of_lt_of_eq t.isLt N_0
  omega

/-! ## The input blocks at a point -/

/-- Place r of the label block at point t is place 4096·t + r of the padded label vector. -/
theorem xblk_read (c : Dev nD) (t : Fin cfg0.N) (r : Fin 4096) :
    (iblk m c 0 t : Vec Ideal S4096 .i32) (ix1 r) = (V m c main_v29 : S503808.Idx → BitVec 32) (ix1 ⟨4096 * t.val + r.val, pt_lt t r⟩) := by
  obtain ⟨e0, -⟩ := idx_facts t
  unfold iblk
  rw [View.read_apply]
  show V m c main_v29 _ = V m c main_v29 _
  congr 1
  funext a
  apply Fin.ext
  match a with
  | ⟨0, _⟩ => show win0_0.index t 0 * 4096 + 1 * r.val = 4096 * t.val + r.val; rw [e0]; omega

/-- The "hi" block at every point is the whole array. -/
theorem hiblk_read (c : Dev nD) (t : Fin cfg0.N) (j : S32x256.Idx) :
    (iblk m c 1 t : Vec Ideal S32x256 .bf16) j = (V m c main_v25 : S32x256.Idx → EReal) j := by
  obtain ⟨-, e0, e1, -⟩ := idx_facts t
  unfold iblk
  rw [View.read_apply]
  show V m c main_v25 _ = V m c main_v25 _
  congr 1
  funext a
  apply Fin.ext
  match a with
  | ⟨0, _⟩ => show win0_1.index t 0 * 32 + 1 * (j 0).val = (j 0).val; rw [e0]; omega
  | ⟨1, _⟩ => show win0_1.index t 1 * 256 + 1 * (j 1).val = (j 1).val; rw [e1]; omega

/-- The "lo" block at every point is the whole array. -/
theorem loblk_read (c : Dev nD) (t : Fin cfg0.N) (j : S32x256.Idx) :
    (iblk m c 2 t : Vec Ideal S32x256 .bf16) j = (V m c main_v28 : S32x256.Idx → EReal) j := by
  obtain ⟨-, -, -, e0, e1, -⟩ := idx_facts t
  unfold iblk
  rw [View.read_apply]
  show V m c main_v28 _ = V m c main_v28 _
  congr 1
  funext a
  apply Fin.ext
  match a with
  | ⟨0, _⟩ => show win0_2.index t 0 * 32 + 1 * (j 0).val = (j 0).val; rw [e0]; omega
  | ⟨1, _⟩ => show win0_2.index t 1 * 256 + 1 * (j 1).val = (j 1).val; rw [e1]; omega

/-- The π block at every point is the whole array. -/
theorem piblk_read (c : Dev nD) (t : Fin cfg0.N) (j : S256.Idx) :
    (iblk m c 3 t : Vec Ideal S256 .f32) j = (V m c main_v24 : S256.Idx → EReal) j := by
  obtain ⟨-, -, -, -, -, e0, -⟩ := idx_facts t
  unfold iblk
  rw [View.read_apply]
  show V m c main_v24 _ = V m c main_v24 _
  congr 1
  funext a
  apply Fin.ext
  match a with
  | ⟨0, _⟩ => show win0_3.index t 0 * 256 + 1 * (j 0).val = (j 0).val; rw [e0]; omega

/-! ## The output array as one function -/

/-- The label of place n of the padded vector: node n's for n < 500000, label 0 on the padding. -/
def labP (lab : Fin 500000 → Fin 32) (n : Fin 503808) : Fin 32 :=
  if h : n.val < 500000 then lab ⟨n.val, h⟩ else 0

/-- The padded label vector's words are the padded labels. -/
theorem xpad_lab (lab : Fin 500000 → Fin 32) (c : Dev nD)
    (hlab : ∀ n : Fin 500000, m ((c : Thread nD τ).loc main_arg0) (ix1 n) = BitVec.ofNat 32 (lab n).val) (n : Fin 503808) :
    (V m c main_v29 : S503808.Idx → BitVec 32) (ix1 n) = BitVec.ofNat 32 (labP lab n).val := by
  unfold labP
  by_cases h : n.val < 500000
  · rw [dif_pos h, xpad_at_lt m c n h]; exact hlab ⟨n.val, h⟩
  · rw [dif_neg h, xpad_at_ge m c n h]; rfl

/-- Entry (g, n) of the output: the likelihood term of the node at place n for generator g. -/
def outArr (lab : Fin 500000 → Fin 32) (c : Dev nD) : S16x503808.Idx → EReal := fun i =>
  Cgmm.likOf fun c' => smPi m c (ix2 c' (i 0)) * smB m c (ix3 c' (labP lab (i 1)) (i 0))

theorem outArr_apply (lab : Fin 500000 → Fin 32) (c : Dev nD) (g : Fin 16) (n : Fin 503808) :
    outArr m lab c (ix2 g n) = Cgmm.likOf fun c' => smPi m c (ix2 c' g) * smB m c (ix3 c' (labP lab n) g) := rfl

/-- On a real number, s + (s − s) = s. -/
theorem add_sub_self_real (s : EReal) (h : ∃ r : ℝ, s = (r : EReal)) : s + (s - s) = s := by
  obtain ⟨r, rfl⟩ := h
  rw [← EReal.coe_sub, sub_self, EReal.coe_zero, add_zero]

/-- WHAT POINT t WRITES BACK is block t of `outArr`. -/
theorem flushed_eq (lab : Fin 500000 → Fin 32) (c : Dev nD)
    (hlab : ∀ n : Fin 500000, m ((c : Thread nD τ).loc main_arg0) (ix1 n) = BitVec.ofNat 32 (lab n).val)
    (hreal : ∀ (c' : Fin 16) (ℓ : Fin 32) (g : Fin 16), ∃ r : ℝ, smB m c (ix3 c' ℓ g) = (r : EReal))
    (t : Fin cfg0.N) :
    (dats m 0 c).flushed 4 t = ((cfg0.win 4).blk t).view.read (Elt Ideal) (outArr m lab c) := by
  show (cfg0.win 4).cut (grid0.coords t) ((dats m 0 c).after 4 t) = _
  rw [after0_4]
  unfold out0_4
  rw [View.canon_unit_zero hz2]
  simp only [View.ld_unit_zero (S := S4096) hz1, View.ld_unit_zero (S := S32x256) hz2, View.ld_unit_zero (S := S256) hz1]
  obtain ⟨-, -, -, -, -, -, e0, e1⟩ := idx_facts t
  refine funext fun (j : S16x4096.Idx) => ?_
  obtain ⟨g, r, rfl⟩ : ∃ (g : Fin 16) (r : Fin 4096), j = ix2 g r := ⟨j 0, j 1, eq_ix2 j⟩
  rw [View.read_apply]
  have hemb : ((cfg0.win 4).blk t).view.emb (ix2 g r) = (ix2 g ⟨4096 * t.val + r.val, pt_lt t r⟩ : S16x503808.Idx) := by
    funext a
    apply Fin.ext
    match a with
    | ⟨0, _⟩ => show win0_4.index t 0 * 16 + 1 * g.val = g.val; rw [e0]; omega
    | ⟨1, _⟩ => show win0_4.index t 1 * 4096 + 1 * r.val = 4096 * t.val + r.val; rw [e1]; omega
  rw [hemb, outArr_apply]
  refine (Cert.KernelIdeal.PayloadValue.pay_apply (iblk m c 0 t) (iblk m c 1 t) (iblk m c 2 t) (iblk m c 3 t) g r
    (labP lab ⟨4096 * t.val + r.val, pt_lt t r⟩) ((xblk_read m c t r).trans (xpad_lab m lab c hlab _))).trans ?_
  refine congrArg Cgmm.likOf (funext fun c' => ?_)
  rw [piblk_read, hiblk_read, loblk_read, pi_at, hi_at, lo_at, add_sub_self_real _ (hreal c' _ g)]

/-- An index of the output is in point t's block iff each coordinate is in the block's range on its axis. -/
theorem mem_blk (t : Fin cfg0.N) (i : S16x503808.Idx) :
    i ∈ ((cfg0.win 4).blk t).view.set ↔ ∀ a : Fin 2, win0_4.index t a * S16x4096.size a ≤ (i a).val ∧ (i a).val < win0_4.index t a * S16x4096.size a + S16x4096.size a := by
  show i ∈ ((View.whole main_v30).slice (win0_4.rect t)).set ↔ _
  rw [View.set_slice_whole, Rect.mem_set_unit]
  exact Iff.rfl

/-- Every index of the output lies in the block of the point that handles its node. -/
theorem cover (i : S16x503808.Idx) : ∃ t : Fin cfg0.N, (cfg0.win 4).flush t = true ∧ i ∈ ((cfg0.win 4).blk t).view.set := by
  have h0 : (i 0).val < 16 := (i 0).isLt
  have h1 : (i 1).val < 503808 := (i 1).isLt
  have hN : cfg0.N = 123 := N_0
  have ht : (i 1).val / 4096 < cfg0.N := by rw [hN]; omega
  obtain ⟨-, -, -, -, -, -, e0, e1⟩ := idx_facts ⟨(i 1).val / 4096, ht⟩
  refine ⟨⟨(i 1).val / 4096, ht⟩, flush0_4 _, ?_⟩
  rw [mem_blk]
  intro a
  match a with
  | ⟨0, _⟩ =>
    show win0_4.index ⟨(i 1).val / 4096, ht⟩ 0 * 16 ≤ (i 0).val ∧ (i 0).val < win0_4.index ⟨(i 1).val / 4096, ht⟩ 0 * 16 + 16
    rw [e0]; omega
  | ⟨1, _⟩ =>
    show win0_4.index ⟨(i 1).val / 4096, ht⟩ 1 * 4096 ≤ (i 1).val ∧ (i 1).val < win0_4.index ⟨(i 1).val / 4096, ht⟩ 1 * 4096 + 4096
    rw [e1]
    show (i 1).val / 4096 * 4096 ≤ (i 1).val ∧ (i 1).val < (i 1).val / 4096 * 4096 + 4096
    omega

/-- THE OUTPUT ARRAY after the region is `outArr`. -/
theorem final (lab : Fin 500000 → Fin 32) (c : Dev nD)
    (hlab : ∀ n : Fin 500000, m ((c : Thread nD τ).loc main_arg0) (ix1 n) = BitVec.ofNat 32 (lab n).val)
    (hreal : ∀ (c' : Fin 16) (ℓ : Fin 32) (g : Fin 16), ∃ r : ℝ, smB m c (ix3 c' ℓ g) = (r : EReal)) :
    (dats m 0 c).arrAt 4 cfg0.N = outArr m lab c :=
  (dats m 0 c).arrAt_eq_of_cover 4 (outArr m lab c) (fun t _ => flushed_eq m lab c hlab hreal t) cover

end Cert.KernelIdeal.KValue

end
-- ==== Proof.KernelTail.lean ====
/-
  The host operations after the region, and the kernel program's run with its result named.

  After the region the host keeps the first 500000 columns of the [16, 503808] output (the padding nodes are dropped),
  transposes them to [500000, 16] — entry (n, g) the likelihood term of node n for generator g —, adds each node's row
  into the row of its graph (a scatter-add from zero by the graph ids), gives the result a unit middle axis and negates.
  The last four steps are the same operations in both programs: they are named as ONE function `graphTail` of the
  graph ids and the per-node terms and never opened.
-/
import proofs.«417450_j39015482917006_3_alg».proof.Proof.Gen.KernelIdeal.Frame
import proofs.«417450_j39015482917006_3_alg».proof.Proof.HostValue
import proofs.«417450_j39015482917006_3_alg».proof.Proof.KernelValue
import proofs.«417450_j39015482917006_3_alg».proof.Proof.Spec
import Idealize.ShloMosaic.Lib.StableHlo.Run
import Idealize.ShloMosaic.Lib.ValueIdx
import Idealize.ShloMosaic.Lib.Pipeline.Value

noncomputable section

namespace Cert.KernelIdeal.KTail

open Cert.KernelIdeal Cert.KernelIdeal.Gen Cert.KernelIdeal.HostValue Cert.KernelIdeal.KValue
open Idealize.ShloMosaic Idealize.ShloMosaic.TcCoe Idealize.SL.Sem Idealize.ShloMosaic.StableHlo Idealize.ShloMosaic.ValueIdx

/-- Per-node terms summed into their graphs' rows, with a unit middle axis, negated. -/
def graphTail (bt : IVec S500000 32) (L : FVec Ideal S500000x16 .f32) : FVec Ideal S5000x1x16 .f32 :=
  Host.negf (broadcastInDim S5000x1x16 ![0, 2] bcast_S5000x16_S5000x1x16_0_2
    (Host.scatterAdd scatter_S5000x16_S500000x1_S500000x16_1_0_0_1
      (broadcastInDim S5000x16 ![] bcast_S_S5000x16 (constant (F := Ideal) S_ .f32 0x00000000#32))
      (broadcastInDim S500000x1 ![0] bcast_S500000_S500000x1_0 bt) L))

variable (m : (ℓ : Loc nD τ sig) → Buf (Elt Ideal) ℓ) (ρ : Dev nD → PrngReg)

/-- Entry (n, g): the likelihood term of node n for generator g. -/
def nodeLik (lab : Fin 500000 → Fin 32) (c : Dev nD) : S500000x16.Idx → EReal := fun j =>
  Cgmm.likOf fun c' => smPi m c (ix2 c' (j 1)) * smB m c (ix3 c' (lab (j 0)) (j 1))

theorem nodeLik_apply (lab : Fin 500000 → Fin 32) (c : Dev nD) (n : Fin 500000) (g : Fin 16) :
    nodeLik m lab c (ix2 n g) = Cgmm.likOf fun c' => smPi m c (ix2 c' g) * smB m c (ix3 c' (lab n) g) := rfl

/-- The first 500000 columns of the output array, transposed, are the per-node terms. -/
theorem sliceT_outArr (lab : Fin 500000 → Fin 32) (c : Dev nD) :
    transpose S500000x16 [1, 0] (extractStridedSlice S16x500000 ![0, 0] (outArr m lab c) slices_S16x503808_S16x500000_0_0)
      transposes_S16x500000_S500000x16_1_0 = nodeLik m lab c := by
  funext j
  obtain ⟨n, g, rfl⟩ : ∃ (n : Fin 500000) (g : Fin 16), j = ix2 n g := ⟨j 0, j 1, eq_ix2 j⟩
  have hn : n.val < 503808 := by have := n.isLt; omega
  refine (transpose_apply [1, 0] _ transposes_S16x500000_S500000x16_1_0 (ix2 n g) (ix2 g n)
    (fun b => match b with | ⟨0, _⟩ => rfl | ⟨1, _⟩ => rfl)).trans ?_
  refine (extractStridedSlice_apply ![0, 0] (outArr m lab c) slices_S16x503808_S16x500000_0_0 (ix2 g n) (ix2 g ⟨n.val, hn⟩)
    (fun a => match a with
      | ⟨0, _⟩ => by show g.val = 0 + g.val; omega
      | ⟨1, _⟩ => by show n.val = 0 + n.val; omega)).trans ?_
  rw [outArr_apply, nodeLik_apply]
  have hl : labP lab ⟨n.val, hn⟩ = lab n := by
    unfold labP
    rw [dif_pos n.isLt]
  rw [hl]

/-- The result buffer after the host operations that follow the region. -/
theorem tail_eq (lab : Fin 500000 → Fin 32) (c : Dev nD)
    (hlab : ∀ n : Fin 500000, m ((c : Thread nD τ).loc main_arg0) (ix1 n) = BitVec.ofNat 32 (lab n).val)
    (hreal : ∀ (c' : Fin 16) (ℓ : Fin 32) (g : Fin 16), ∃ r : ℝ, smB m c (ix3 c' ℓ g) = (r : EReal)) :
    Pipeline.afterTail₀ cfgs (dats m) 0 (V0 m) [hostOps1] c main_v37
      = graphTail (m ((c : Thread nD τ).loc main_arg2)) (nodeLik m lab c) := by
  unfold Pipeline.afterTail₀
  show StableHlo.after hostOps1 _ (Proc.devRef .tc main_v37) = _
  after_results
  rw [show Pipeline.withArrays (cfgs 0).spec c (V0 m c) (fun w => (dats m 0 c).arrAt w (cfgs 0).N) (Proc.devRef .tc main_v30)
        = outArr m lab c from
      (Pipeline.withArrays_arr spec0 launch0.win.arr_inj c _ _ 4).trans (final m lab c hlab hreal),
    show Pipeline.withArrays (cfgs 0).spec c (V0 m c) (fun w => (dats m 0 c).arrAt w (cfgs 0).N) (Proc.devRef .tc main_arg2)
        = m ((c : Thread nD τ).loc main_arg2) from
      (Pipeline.withArrays_of_ne _ c (V0 m c) _ main_arg2 (by exact (by decide : ∀ w, Pipeline.arrRef spec0 w ≠ main_arg2))).trans
        (V_main_arg2 m c),
    sliceT_outArr]
  rfl

/-- THE RUN of the kernel program: the result buffer at `graphTail` of the graph ids and the per-node terms, the
    arguments unchanged. -/
theorem run (lab : Dev nD → Fin 500000 → Fin 32)
    (hlab : ∀ (c : Dev nD) (n : Fin 500000), m ((c : Thread nD τ).loc main_arg0) (ix1 n) = BitVec.ofNat 32 (lab c n).val)
    (hreal : ∀ (c : Dev nD) (c' : Fin 16) (ℓ : Fin 32) (g : Fin 16), ∃ r : ℝ, smB m c (ix3 c' ℓ g) = (r : EReal)) :
    θ_run defs (onTc (τ := τ) (main (F := Ideal))) ⟨m, fun _ => 0, ρ⟩ fun r => ∀ c : Dev nD,
      r.2.mem ((c.tc : Thread nD τ).loc main_v37) = graphTail (m ((c : Thread nD τ).loc main_arg2)) (nodeLik m (lab c) c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v37 (Pipeline.mem_restRefs_of main_v37 (by decide) (by decide))).trans (tail_eq m (lab c) c (hlab c) (hreal c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KTail

end
-- ==== Proof.lean ====
/-
  A graph-level mixture likelihood: for every graph and every mixture generator g, minus the sum over the graph's nodes n of
      Σ_c (q_n c / Σ_c' q_n c') · log (q_n c),     q_n c = π[c, g] · b[c, x n, g],
  where b is the softmax of B over the 32 node labels, π the softmax of Pi over the 16 hidden states and x n the
  label of node n.

  The kernel computes the per-node terms in blocks of 4096 nodes: it selects row x n of the table of b by a product
  with a one-hot row (on the extended reals 0 · a = 0 for every a, so the product is the selected row), the table
  given as a part and a remainder that add up to b because b is real-valued; it forms the 16 numerators along 256
  lanes (lane 16·c + g) and sums over the hidden states by four cyclic shifts of 16, 32, 64 and 128 lanes, which
  visit every residue class of lanes modulo 16 exactly once. The reference gathers row x n directly and sums over the
  hidden-state axis. Addition on the extended reals is commutative and associative, so the two sums agree, term by
  term the two programs form the same quotients and logarithms, and both end with the same scatter-add of the
  per-node terms into their graphs.

  The labels are assumed to lie in the label alphabet, 0 ≤ x n < 32 (outside it the reference's gather indexes out of
  range), and B and Pi to be finite.
-/
import proofs.«417450_j39015482917006_3_alg».proof.Defs
import proofs.«417450_j39015482917006_3_alg».proof.Proof.Gen.Kernel
import proofs.«417450_j39015482917006_3_alg».proof.Proof.Gen.Kernel.Frame
import proofs.«417450_j39015482917006_3_alg».proof.Proof.Gen.KernelIdeal
import proofs.«417450_j39015482917006_3_alg».proof.Proof.Gen.KernelIdeal.Frame
import proofs.«417450_j39015482917006_3_alg».proof.Proof.Gen.ReferenceIdeal
import proofs.«417450_j39015482917006_3_alg».proof.Proof.Gen.Pre_finite_inputs
import proofs.«417450_j39015482917006_3_alg».proof.Proof.Gen.ReferenceIdeal.Run
import proofs.«417450_j39015482917006_3_alg».proof.Proof.Gen.ReferenceIdeal.Read
import proofs.«417450_j39015482917006_3_alg».proof.Proof.Domain
import proofs.«417450_j39015482917006_3_alg».proof.Proof.RefLik
import proofs.«417450_j39015482917006_3_alg».proof.Proof.KernelTail

noncomputable section

namespace Cert.Proof

open Idealize.ShloMosaic Idealize.ShloMosaic.TcCoe Idealize.SL.Sem Idealize.ShloMosaic.ValueIdx

/-- The reference's last four operations are the kernel program's: its result is `graphTail` of the graph ids and its
    own per-node terms. -/
theorem ref_tail (x0 x2 : IVec Cert.KernelIdeal.S500000 32) (x3 : FVec Ideal Cert.KernelIdeal.S16x32x16 .f32)
    (x4 : FVec Ideal Cert.KernelIdeal.S16x16 .f32) :
    Cert.ReferenceIdeal.Read.val_main_v44 (F := Ideal) x0 x2 x3 x4
      = Cert.KernelIdeal.KTail.graphTail x2 (Cert.ReferenceIdeal.Read.val_main_v39 (F := Ideal) x0 x3 x4) := by
  unfold Cert.ReferenceIdeal.Read.val_main_v44 Cert.ReferenceIdeal.Read.val_main_v43 Cert.ReferenceIdeal.Read.val_main_v42
    Cert.ReferenceIdeal.Read.val_main_v41 Cert.ReferenceIdeal.Read.val_main_v40 Cert.ReferenceIdeal.Read.val_main_cst_8
    Cert.KernelIdeal.KTail.graphTail
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with `graphTail` of the same graph ids and the same per-node terms. -/
theorem algebraic : Cert.algebraic_KernelIdeal_ReferenceIdeal := by
  intro m ρ m' ρ' hpre hagree
  choose lab hlab using fun (c : Dev Cert.KernelIdeal.nD) (n : Fin 500000) =>
    Cert.Domain.label_of_pre _ _ _ _ _ (hpre c) n
  have hreal : ∀ (c : Dev Cert.KernelIdeal.nD) (c' : Fin 16) (ℓ : Fin 32) (g : Fin 16),
      ∃ r : ℝ, Cert.KernelIdeal.HostValue.smB m c (ix3 c' ℓ g) = (r : EReal) :=
    fun c c' ℓ g => Cert.Domain.softmaxB_real _ _ _ _ _ (hpre c) c' ℓ g
  refine ⟨_, Cert.KernelIdeal.KTail.run m ρ lab hlab hreal, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.2.1, (hagree c).2.2.2.1, (hagree c).2.2.2.2]
  refine (ref_tail _ _ _ _).trans (congrArg _ (funext fun j => ?_))
  obtain ⟨n, g, rfl⟩ : ∃ (n : Fin 500000) (g : Fin 16), j = ix2 n g := ⟨j 0, j 1, eq_ix2 j⟩
  exact Cert.ReferenceIdeal.RefValue.lik_apply _ _ _ n g (lab c n) (hlab c n)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
